-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S500x65536 : Shape := ⟨2, ![500, 65536]⟩
abbrev S8x500 : Shape := ⟨2, ![8, 500]⟩
abbrev S8 : Shape := ⟨1, ![8]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S500x65536 : S_.BroadcastsInDim S500x65536 (![] : Fin 0 → Fin S500x65536.rank)
  reducesTo_S500x65536_S_d0_1 : S500x65536.ReducesTo [0, 1] S_
  bcast_S_S8x500 : S_.BroadcastsInDim S8x500 (![] : Fin 0 → Fin S8x500.rank)
  reducesTo_S8x500_S_d0_1 : S8x500.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S64x256x256 .f32) (main_arg1 : FVec F S500x65536 .f32) (main_arg2 : FVec F S8x500 .f32) (main_arg3 : FVec F S8 .f32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S500x65536 .f32 := Host.absf main_arg1
  let main_cst_0 : FVec F S_ .f32 := constant S_ .f32 0x7F800000#32
  let main_v5 : FVec F S500x65536 .f32 := broadcastInDim S500x65536 ![] bcast_S_S500x65536 main_cst_0
  let main_v6 : IVec S500x65536 1 := cmpf .olt main_v4 main_v5
  let main_c_1 : IVec S_ 1 := constantI S_ 1 1#1
  let main_v7 : IVec S_ 1 := (fun x v => Host.reduce IntOp.andi x v reducesTo_S500x65536_S_d0_1 h_S_) main_v6 main_c_1
  let main_v8 : IVec S_ 1 := andi main_v3 main_v7
  let main_v9 : FVec F S8x500 .f32 := Host.absf main_arg2
  let main_cst_2 : FVec F S_ .f32 := constant S_ .f32 0x7F800000#32
  let main_v10 : FVec F S8x500 .f32 := broadcastInDim S8x500 ![] bcast_S_S8x500 main_cst_2
  let main_v11 : IVec S8x500 1 := cmpf .olt main_v9 main_v10
  let main_c_3 : IVec S_ 1 := constantI S_ 1 1#1
  let main_v12 : IVec S_ 1 := (fun x v => Host.reduce IntOp.andi x v reducesTo_S8x500_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S64x256x256 : Shape := ⟨3, ![64, 256, 256]⟩
abbrev S500x65536 : Shape := ⟨2, ![500, 65536]⟩
abbrev S8x500 : Shape := ⟨2, ![8, 500]⟩
abbrev S8 : Shape := ⟨1, ![8]⟩
abbrev S64x65536 : Shape := ⟨2, ![64, 65536]⟩
abbrev S1x8 : Shape := ⟨2, ![1, 8]⟩
abbrev S64x8 : Shape := ⟨2, ![64, 8]⟩
abbrev S64x4096 : Shape := ⟨2, ![64, 4096]⟩
abbrev S500x4096 : Shape := ⟨2, ![500, 4096]⟩
abbrev S64x500 : Shape := ⟨2, ![64, 500]⟩
abbrev S500x1 : Shape := ⟨2, ![500, 1]⟩
abbrev S64x1 : Shape := ⟨2, ![64, 1]⟩
abbrev S500 : Shape := ⟨1, ![500]⟩
abbrev S64 : Shape := ⟨1, ![64]⟩
abbrev S1x500 : Shape := ⟨2, ![1, 500]⟩

abbrev nBuf : Space → Nat
  | .hbm => 7
  | .vmem => 10
  | .smem => 0
  | _ => 0

abbrev bufTy : (tb : Table) → Fin (tcTables nBuf tb) → BufTy
  | .hbm, ⟨0, _⟩ => ⟨S64x256x256, .f32⟩
  | .hbm, ⟨1, _⟩ => ⟨S500x65536, .f32⟩
  | .hbm, ⟨2, _⟩ => ⟨S8x500, .f32⟩
  | .hbm, ⟨3, _⟩ => ⟨S8, .f32⟩
  | .hbm, ⟨4, _⟩ => ⟨S64x65536, .f32⟩
  | .hbm, ⟨5, _⟩ => ⟨S1x8, .f32⟩
  | .hbm, ⟨6, _⟩ => ⟨S64x8, .f32⟩
  | .local _ .vmem, ⟨0, _⟩ => ⟨S64x4096, .f32⟩
  | .local _ .vmem, ⟨1, _⟩ => ⟨S64x4096, .f32⟩
  | .local _ .vmem, ⟨2, _⟩ => ⟨S500x4096, .f32⟩
  | .local _ .vmem, ⟨3, _⟩ => ⟨S500x4096, .f32⟩
  | .local _ .vmem, ⟨4, _⟩ => ⟨S8x500, .f32⟩
  | .local _ .vmem, ⟨5, _⟩ => ⟨S1x8, .f32⟩
  | .local _ .vmem, ⟨6, _⟩ => ⟨S64x8, .f32⟩
  | .local _ .vmem, ⟨7, _⟩ => ⟨S64x500, .f32⟩
  | .local _ .vmem, ⟨8, _⟩ => ⟨S500x1, .f32⟩
  | .local _ .vmem, ⟨9, _⟩ => ⟨S64x1, .f32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v30 : BitVec 1 := Scalar.cmpi .eq arg0 c15_i32
  let v31 : BitVec 32 := Scalar.extui v30
  let c0_i32_18 : BitVec 32 := 0#32
  let v32 : BitVec 1 := Scalar.cmpi .ne v31 c0_i32_18
  v32

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S500x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S64x256x256_S64x65536 : S64x256x256.ShapeCasts S64x65536
  shapeCasts_S8_S1x8 : S8.ShapeCasts S1x8
  inb_S64x500_S64x500_0_0 : ∀ a, (![0, 0] : Fin 2 → Nat) a + S64x500.size a ≤ S64x500.size a
  h_S64x500 : 0 < S64x500.numel
  shapeCasts_S64x500_S64x500 : S64x500.ShapeCasts S64x500
  inb_S500x1_S500x1_0_0 : ∀ a, (![0, 0] : Fin 2 → Nat) a + S500x1.size a ≤ S500x1.size a
  h_S500x1 : 0 < S500x1.numel
  shapeCasts_S500x1_S500x1 : S500x1.ShapeCasts S500x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S500x4096_S500x4096_0_0 : ∀ a, (![0, 0] : Fin 2 → Nat) a + S500x4096.size a ≤ S500x4096.size a
  h_S500x4096 : 0 < S500x4096.numel
  bitsLt_bf16_f32 : FTy.bits .bf16 < FTy.bits .f32
  reduces_S500x4096_S500 : S500x4096.Reduces [1] S500
  shapeCasts_S500_S500x1 : S500.ShapeCasts S500x1
  reduces_S64x4096_S64 : S64x4096.Reduces [1] S64
  shapeCasts_S64_S64x1 : S64.ShapeCasts S64x1
  transposes_S500x1_p1_0_S1x500 : S500x1.Transposes [1, 0] S1x500
  broadcasts_S64x1_S64x500 : S64x1.Broadcasts S64x500
  broadcasts_S1x500_S64x500 : S1x500.Broadcasts S64x500
  inb_S8x500_S8x500_0_0 : ∀ a, (![0, 0] : Fin 2 → Nat) a + S8x500.size a ≤ S8x500.size a
  h_S8x500 : 0 < S8x500.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S64x8_S64x8_0_0 : ∀ a, (![0, 0] : Fin 2 → Nat) a + S64x8.size a ≤ S64x8.size a
  h_S64x8 : 0 < S64x8.numel
  dot_S64x4096_S500x4096_S64x500_1_1_0_0_n_n_wf : DotDims.WF S64x4096 S500x4096 S64x500 [1] [1] [0] [0] [] []
  dot_S64x500_S8x500_S64x8_1_1_0_0_n_n_wf : DotDims.WF S64x500 S8x500 S64x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x65536.size a
  hwx0_0 : ∀ i : grid0.Coords, EltTy.bits .f32 = 32 ∨ (Rect.block (s := S64x65536) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S500x4096.size a ≤ S500x65536.size a
  hwx0_1 : ∀ i : grid0.Coords, EltTy.bits .f32 = 32 ∨ (Rect.block (s := S500x65536) S500x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x500.size a ≤ S8x500.size a
  hwx0_2 : ∀ i : grid0.Coords, EltTy.bits .f32 = 32 ∨ (Rect.block (s := S8x500) S8x500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x8.size a ≤ S64x8.size a
  hwx0_4 : ∀ i : grid0.Coords, EltTy.bits .f32 = 32 ∨ (Rect.block (s := S64x8) S64x8.size (cc0_transform_4 i) (hinb0_4 i)).WholeWords (EltTy.packing .f32)

variable [Facts₀]

def dot_S64x4096_S500x4096_S64x500_1_1_0_0_n_n : DotDims S64x4096 S500x4096 S64x500 where
  lhsContracting := [1]
  rhsContracting := [1]
  lhsNonContracting := [0]
  rhsNonContracting := [0]
  lhsBatch := []
  rhsBatch := []
  wf := dot_S64x4096_S500x4096_S64x500_1_1_0_0_n_n_wf
def dot_S64x500_S8x500_S64x8_1_1_0_0_n_n : DotDims S64x500 S8x500 S64x8 where
  lhsContracting := [1]
  rhsContracting := [1]
  lhsNonContracting := [0]
  rhsNonContracting := [0]
  lhsBatch := []
  rhsBatch := []
  wf := dot_S64x500_S8x500_S64x8_1_1_0_0_n_n_wf

abbrev win0_0 : Pipeline.Window sig grid0 :=
  Pipeline.Window.ofSpec (Memref.whole main_v0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S500x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x8.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x256x256 : Shape := ⟨3, ![64, 256, 256]⟩
abbrev S500x65536 : Shape := ⟨2, ![500, 65536]⟩
abbrev S8x500 : Shape := ⟨2, ![8, 500]⟩
abbrev S8 : Shape := ⟨1, ![8]⟩
abbrev S64x65536 : Shape := ⟨2, ![64, 65536]⟩
abbrev S_ : Shape := ⟨0, ![]⟩
abbrev S64 : Shape := ⟨1, ![64]⟩
abbrev S64x1 : Shape := ⟨2, ![64, 1]⟩
abbrev S500 : Shape := ⟨1, ![500]⟩
abbrev S65536x500 : Shape := ⟨2, ![65536, 500]⟩
abbrev S64x500 : Shape := ⟨2, ![64, 500]⟩
abbrev S1x500 : Shape := ⟨2, ![1, 500]⟩
abbrev S500x8 : Shape := ⟨2, ![500, 8]⟩
abbrev S64x8 : Shape := ⟨2, ![64, 8]⟩
abbrev S1x8 : Shape := ⟨2, ![1, 8]⟩

abbrev nBuf : Space → Nat
  | .hbm => 31
  | .vmem => 0
  | .smem => 0
  | _ => 0

abbrev bufTy : (tb : Table) → Fin (tcTables nBuf tb) → BufTy
  | .hbm, ⟨0, _⟩ => ⟨S64x256x256, .f32⟩
  | .hbm, ⟨1, _⟩ => ⟨S500x65536, .f32⟩
  | .hbm, ⟨2, _⟩ => ⟨S8x500, .f32⟩
  | .hbm, ⟨3, _⟩ => ⟨S8, .f32⟩
  | .hbm, ⟨4, _⟩ => ⟨S64x65536, .f32⟩
  | .hbm, ⟨5, _⟩ => ⟨S64x65536, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S500x65536, .f32⟩
  | .hbm, ⟨10, _⟩ => ⟨S_, .f32⟩
  | .hbm, ⟨11, _⟩ => ⟨S500, .f32⟩
  | .hbm, ⟨12, _⟩ => ⟨S65536x500, .f32⟩
  | .hbm, ⟨13, _⟩ => ⟨S64x500, .f32⟩
  | .hbm, ⟨14, _⟩ => ⟨S_, .f32⟩
  | .hbm, ⟨15, _⟩ => ⟨S64x500, .f32⟩
  | .hbm, ⟨16, _⟩ => ⟨S64x500, .f32⟩
  | .hbm, ⟨17, _⟩ => ⟨S64x500, .f32⟩
  | .hbm, ⟨18, _⟩ => ⟨S64x500, .f32⟩
  | .hbm, ⟨19, _⟩ => ⟨S1x500, .f32⟩
  | .hbm, ⟨20, _⟩ => ⟨S64x500, .f32⟩
  | .hbm, ⟨21, _⟩ => ⟨S64x500, .f32⟩
  | .hbm, ⟨22, _⟩ => ⟨S_, .f32⟩
  | .hbm, ⟨23, _⟩ => ⟨S64x500, .f32⟩
  | .hbm, ⟨24, _⟩ => ⟨S64x500, .f32⟩
  | .hbm, ⟨25, _⟩ => ⟨S64x500, .f32⟩
  | .hbm, ⟨26, _⟩ => ⟨S500x8, .f32⟩
  | .hbm, ⟨27, _⟩ => ⟨S64x8, .f32⟩
  | .hbm, ⟨28, _⟩ => ⟨S1x8, .f32⟩
  | .hbm, ⟨29, _⟩ => ⟨S64x8, .f32⟩
  | .hbm, ⟨30, _⟩ => ⟨S64x8, .f32⟩
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  shapeCasts_S64x256x256_S64x65536 : S64x256x256.ShapeCasts S64x65536
  reducesTo_S64x65536_S64_d1 : S64x65536.ReducesTo [1] S64
  h_S_ : 0 < S_.numel
  bcast_S64_S64x1_0 : S64.BroadcastsInDim S64x1 (![0] : Fin 1 → Fin S64x1.rank)
  reducesTo_S500x65536_S500_d1 : S500x65536.ReducesTo [1] S500
  transposes_S500x65536_S65536x500_1_0 : S500x65536.Transposes [1, 0] S65536x500
  bcast_S_S64x500 : S_.BroadcastsInDim S64x500 (![] : Fin 0 → Fin S64x500.rank)
  bcast_S64x1_S64x500_0_1 : S64x1.BroadcastsInDim S64x500 (![0, 1] : Fin 2 → Fin S64x500.rank)
  bcast_S500_S1x500_1 : S500.BroadcastsInDim S1x500 (![1] : Fin 1 → Fin S1x500.rank)
  bcast_S1x500_S64x500_0_1 : S1x500.BroadcastsInDim S64x500 (![0, 1] : Fin 2 → Fin S64x500.rank)
  transposes_S8x500_S500x8_1_0 : S8x500.Transposes [1, 0] S500x8
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  dot_S64x65536_S65536x500_S64x500_1_0_0_1_n_n_wf : DotDims.WF S64x65536 S65536x500 S64x500 [1] [0] [0] [1] [] []
  dot_S64x500_S500x8_S64x8_1_0_0_1_n_n_wf : DotDims.WF S64x500 S500x8 S64x8 [1] [0] [0] [1] [] []

variable [Facts₀]

def dot_S64x65536_S65536x500_S64x500_1_0_0_1_n_n : DotDims S64x65536 S65536x500 S64x500 where
  lhsContracting := [1]
  rhsContracting := [0]
  lhsNonContracting := [0]
  rhsNonContracting := [1]
  lhsBatch := []
  rhsBatch := []
  wf := dot_S64x65536_S65536x500_S64x500_1_0_0_1_n_n_wf
def dot_S64x500_S500x8_S64x8_1_0_0_1_n_n : DotDims S64x500 S500x8 S64x8 where
  lhsContracting := [1]
  rhsContracting := [0]
  lhsNonContracting := [0]
  rhsNonContracting := [1]
  lhsBatch := []
  rhsBatch := []
  wf := dot_S64x500_S500x8_S64x8_1_0_0_1_n_n_wf

class Facts : Prop extends Facts₀ where

variable [Facts]
-- ==== Proof.Blocks.lean ====
/-
  Names, at their literal shapes, for what one grid point sees.

  The feature axis of 65536 is cut into 16 blocks of 4096; grid point t stages block t of the flattened batch
  ([64, 4096]) and of the centres ([500, 4096]), and the whole weight matrix and bias row at every point. The arrays
  are as the kernel region finds them: the batch already flattened to [64, 65536] and the bias already viewed as a
  [1, 8] row by the two reshapes that precede the region.
-/
import proofs.«160877_j9062380994856_1_alg».proof.Proof.Gen.KernelIdeal.Frame

noncomputable section

namespace Cert.RbfHead

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Block t of the flattened batch: columns 4096·t … 4096·t + 4095. -/
abbrev xblk (c : Dev nD) (t : Fin cfg0.N) : Vec F S64x4096 .f32 := iblk m c 0 t
/-- Block t of the centres: the same columns. -/
abbrev cblk (c : Dev nD) (t : Fin cfg0.N) : Vec F S500x4096 .f32 := iblk m c 1 t
/-- The weight matrix, staged whole at every point. -/
abbrev wblk (c : Dev nD) (t : Fin cfg0.N) : Vec F S8x500 .f32 := iblk m c 2 t
/-- The bias row, staged whole at every point. -/
abbrev bblk (c : Dev nD) (t : Fin cfg0.N) : Vec F S1x8 .f32 := iblk m c 3 t

/-- The flattened batch as the region finds it. -/
abbrev xarr (c : Dev nD) : Vec F S64x65536 .f32 := V m c main_v0
/-- The centres as the region finds them. -/
abbrev carr (c : Dev nD) : Vec F S500x65536 .f32 := V m c main_arg1
/-- The weights as the region finds them. -/
abbrev warr (c : Dev nD) : Vec F S8x500 .f32 := V m c main_arg2
/-- The bias row as the region finds it. -/
abbrev barr (c : Dev nD) : Vec F S1x8 .f32 := V m c main_v1

/-- The point before t (t itself at the first point, where nothing reads it). -/
abbrev prevAt (c : Dev nD) (t : Fin cfg0.N) : Vec F S64x8 .f32 × Vec F S64x500 .f32 × Vec F S500x1 .f32 × Vec F S64x1 .f32 :=
  outsAt0 m c (t.val - 1) (Nat.lt_of_le_of_lt (Nat.sub_le _ _) t.isLt)

end Cert.RbfHead

end
-- ==== Proof.Steps.lean ====
/-
  What one grid point leaves in the three carried accumulators and in the output, as the body's own arithmetic.

  At grid point t the body reads block t of the flattened batch (x : [64, 4096]) and of the centres (c : [500, 4096])
  and updates three accumulators it carries from point to point:
      cross : [64, 500]   ←  cross + x · cᵀ            (the payload term `k0_pay6 x c cross`),
      csq   : [500, 1]    ←  csq + row sums of c ∘ c   (`k0_pay7 c csq`),
      xsq   : [64, 1]     ←  xsq + row sums of x ∘ x   (`k0_pay8 x xsq`).
  There are three cases. At the first point (t mod 16 = 0) each accumulator is first overwritten by the zero block
  (`k0_pay2`, `k0_pay3`, `k0_pay4`) and the update reads that zero block back. At a middle point the update is over what
  point t − 1 left. At the last point (t mod 16 = 15) the same three updates are made and then the output block
  [64, 8] is stored: exp (γ' · ((xsq − 2 · cross) + csqᵀ)) · wᵀ + bias (`k0_pay1`), computed from the three accumulators
  AFTER that point's own updates and from the whole weight matrix and bias row.

  The law used: the final contents of a buffer is the list of rectangles stored into it, later over earlier, read back.
  Every store here covers its whole buffer (offset zero, full extent), so the contents is the payload of the last
  store; every load reads a whole buffer (offset zero, full extent), so it returns the buffer's contents: the contents
  at entry, or the payload of the store that went before it in the same body. The first part proves this per case and
  per buffer for arbitrary entry contents, generic in the float type. The second part instantiates it at grid point t:
  the case is the one t mod 16 selects, the input contents are blocks t, and the accumulators' entry contents are what
  point t − 1 left.
-/
import proofs.«160877_j9062380994856_1_alg».proof.Proof.Blocks
import Idealize.ShloMosaic.Lib.ValueIdx
import Idealize.ShloMosaic.Lib.Pipeline.Value
import Idealize.ShloMosaic.Lib.Tactic

noncomputable section

namespace Cert.RbfHead

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The offset (0, 0) of every load and store here is the zero offset. -/
private theorem hz2 : (![0, 0] : Fin 2 → Nat) = fun _ => 0 := funext fun a => by fin_cases a <;> rfl

/-! ## Per case and per buffer, for arbitrary entry contents -/

/-- First point, cross accumulator: two whole-buffer stores, the zero block then the update; the update's load of
    the accumulator reads the zero block back, so the buffer ends at `0 + x · cᵀ` as `k0_pay6 x c k0_pay2`. -/
theorem pieceA_cross (c : Dev nD) (i : grid0.Coords) (arg1 : Memref sig .tc .vmem S64x4096 .f32) (harg1 : arg1.IsWhole) (arg2 : Memref sig .tc .vmem S500x4096 .f32) (harg2 : arg2.IsWhole) (arg3 : Memref sig .tc .vmem S8x500 .f32) (harg3 : arg3.IsWhole) (arg4 : Memref sig .tc .vmem S1x8 .f32) (harg4 : arg4.IsWhole) (arg5 : Memref sig .tc .vmem S64x8 .f32) (harg5 : arg5.IsWhole) (arg6 : Memref sig .tc .vmem S64x500 .f32) (harg6 : arg6.IsWhole) (arg7 : Memref sig .tc .vmem S500x1 .f32) (harg7 : arg7.IsWhole) (arg8 : Memref sig .tc .vmem S64x1 .f32) (harg8 : arg8.IsWhole) (hc0 : cond0_0 i) (hc1 : ¬cond0_1 i)
    (x0 : Vec F S64x4096 .f32) (x1 : Vec F S500x4096 .f32) (x2 : Vec F S8x500 .f32) (x3 : Vec F S1x8 .f32) :
    sout0_A_0 c i arg1 harg1 arg2 harg2 arg3 harg3 arg4 harg4 arg5 harg5 arg6 harg6 arg7 harg7 arg8 harg8 hc0 hc1 x0 x1 x2 x3 = k0_pay6 x0 x1 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x500) hz2, View.readCov_unit_zero (S := S64x500) _ hz2]
  simp only [View.readAt_eq_ld, harg1.read_unread, harg2.read_unread, harg3.read_unread, harg4.read_unread, harg6.read_unread, harg7.read_unread, harg8.read_unread, View.ld_unit_zero (S := S64x4096) hz2, View.ld_unit_zero (S := S500x4096) hz2, View.ld_unit_zero (S := S8x500) hz2, View.ld_unit_zero (S := S1x8) hz2, View.ld_unit_zero (S := S64x500) hz2, View.ld_unit_zero (S := S500x1) hz2, View.ld_unit_zero (S := S64x1) hz2]

/-- First point, centres' squared norms: the zero block, then the update over it read back:
    `k0_pay7 c k0_pay3`. -/
theorem pieceA_csq (c : Dev nD) (i : grid0.Coords) (arg1 : Memref sig .tc .vmem S64x4096 .f32) (harg1 : arg1.IsWhole) (arg2 : Memref sig .tc .vmem S500x4096 .f32) (harg2 : arg2.IsWhole) (arg3 : Memref sig .tc .vmem S8x500 .f32) (harg3 : arg3.IsWhole) (arg4 : Memref sig .tc .vmem S1x8 .f32) (harg4 : arg4.IsWhole) (arg5 : Memref sig .tc .vmem S64x8 .f32) (harg5 : arg5.IsWhole) (arg6 : Memref sig .tc .vmem S64x500 .f32) (harg6 : arg6.IsWhole) (arg7 : Memref sig .tc .vmem S500x1 .f32) (harg7 : arg7.IsWhole) (arg8 : Memref sig .tc .vmem S64x1 .f32) (harg8 : arg8.IsWhole) (hc0 : cond0_0 i) (hc1 : ¬cond0_1 i)
    (x0 : Vec F S64x4096 .f32) (x1 : Vec F S500x4096 .f32) (x2 : Vec F S8x500 .f32) (x3 : Vec F S1x8 .f32) :
    sout0_A_1 c i arg1 harg1 arg2 harg2 arg3 harg3 arg4 harg4 arg5 harg5 arg6 harg6 arg7 harg7 arg8 harg8 hc0 hc1 x0 x1 x2 x3 = k0_pay7 x1 (k0_pay3 (F := F)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S500x1) hz2, View.readCov_unit_zero (S := S500x1) _ hz2]
  simp only [View.readAt_eq_ld, harg1.read_unread, harg2.read_unread, harg3.read_unread, harg4.read_unread, harg6.read_unread, harg7.read_unread, harg8.read_unread, View.ld_unit_zero (S := S64x4096) hz2, View.ld_unit_zero (S := S500x4096) hz2, View.ld_unit_zero (S := S8x500) hz2, View.ld_unit_zero (S := S1x8) hz2, View.ld_unit_zero (S := S64x500) hz2, View.ld_unit_zero (S := S500x1) hz2, View.ld_unit_zero (S := S64x1) hz2]

/-- First point, batch rows' squared norms: the zero block, then the update over it read back:
    `k0_pay8 x k0_pay4`. -/
theorem pieceA_xsq (c : Dev nD) (i : grid0.Coords) (arg1 : Memref sig .tc .vmem S64x4096 .f32) (harg1 : arg1.IsWhole) (arg2 : Memref sig .tc .vmem S500x4096 .f32) (harg2 : arg2.IsWhole) (arg3 : Memref sig .tc .vmem S8x500 .f32) (harg3 : arg3.IsWhole) (arg4 : Memref sig .tc .vmem S1x8 .f32) (harg4 : arg4.IsWhole) (arg5 : Memref sig .tc .vmem S64x8 .f32) (harg5 : arg5.IsWhole) (arg6 : Memref sig .tc .vmem S64x500 .f32) (harg6 : arg6.IsWhole) (arg7 : Memref sig .tc .vmem S500x1 .f32) (harg7 : arg7.IsWhole) (arg8 : Memref sig .tc .vmem S64x1 .f32) (harg8 : arg8.IsWhole) (hc0 : cond0_0 i) (hc1 : ¬cond0_1 i)
    (x0 : Vec F S64x4096 .f32) (x1 : Vec F S500x4096 .f32) (x2 : Vec F S8x500 .f32) (x3 : Vec F S1x8 .f32) :
    sout0_A_2 c i arg1 harg1 arg2 harg2 arg3 harg3 arg4 harg4 arg5 harg5 arg6 harg6 arg7 harg7 arg8 harg8 hc0 hc1 x0 x1 x2 x3 = k0_pay8 x0 (k0_pay4 (F := F)) := by
  unfold sout0_A_2
  rw [View.read_writes_eq_canon _ _ _ (scover0_A_2 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x1) hz2, View.readCov_unit_zero (S := S64x1) _ hz2]
  simp only [View.readAt_eq_ld, harg1.read_unread, harg2.read_unread, harg3.read_unread, harg4.read_unread, harg6.read_unread, harg7.read_unread, harg8.read_unread, View.ld_unit_zero (S := S64x4096) hz2, View.ld_unit_zero (S := S500x4096) hz2, View.ld_unit_zero (S := S8x500) hz2, View.ld_unit_zero (S := S1x8) hz2, View.ld_unit_zero (S := S64x500) hz2, View.ld_unit_zero (S := S500x1) hz2, View.ld_unit_zero (S := S64x1) hz2]

/-- Middle point, cross accumulator: one whole-buffer store whose payload's three loads read the two input
    blocks and the accumulator's entry contents whole: `k0_pay6 x c cross`. -/
theorem pieceB_cross (c : Dev nD) (i : grid0.Coords) (arg1 : Memref sig .tc .vmem S64x4096 .f32) (harg1 : arg1.IsWhole) (arg2 : Memref sig .tc .vmem S500x4096 .f32) (harg2 : arg2.IsWhole) (arg3 : Memref sig .tc .vmem S8x500 .f32) (harg3 : arg3.IsWhole) (arg4 : Memref sig .tc .vmem S1x8 .f32) (harg4 : arg4.IsWhole) (arg5 : Memref sig .tc .vmem S64x8 .f32) (harg5 : arg5.IsWhole) (arg6 : Memref sig .tc .vmem S64x500 .f32) (harg6 : arg6.IsWhole) (arg7 : Memref sig .tc .vmem S500x1 .f32) (harg7 : arg7.IsWhole) (arg8 : Memref sig .tc .vmem S64x1 .f32) (harg8 : arg8.IsWhole) (hc0 : ¬cond0_0 i) (hc1 : ¬cond0_1 i)
    (x0 : Vec F S64x4096 .f32) (x1 : Vec F S500x4096 .f32) (x2 : Vec F S8x500 .f32) (x3 : Vec F S1x8 .f32) (xs0 : Vec F S64x500 .f32) (xs1 : Vec F S500x1 .f32) (xs2 : Vec F S64x1 .f32) :
    sout0_B_0 c i arg1 harg1 arg2 harg2 arg3 harg3 arg4 harg4 arg5 harg5 arg6 harg6 arg7 harg7 arg8 harg8 hc0 hc1 x0 x1 x2 x3 xs0 xs1 xs2 = k0_pay6 x0 x1 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1 xs2)]
  unfold kernelRun0_B
  dsimp only
  sl_unfold_words
  rw [View.canon_unit_zero hz2]
  simp only [View.readAt_eq_ld, harg1.read_unread, harg2.read_unread, harg3.read_unread, harg4.read_unread, harg6.read_unread, harg7.read_unread, harg8.read_unread, View.ld_unit_zero (S := S64x4096) hz2, View.ld_unit_zero (S := S500x4096) hz2, View.ld_unit_zero (S := S8x500) hz2, View.ld_unit_zero (S := S1x8) hz2, View.ld_unit_zero (S := S64x500) hz2, View.ld_unit_zero (S := S500x1) hz2, View.ld_unit_zero (S := S64x1) hz2]

/-- Middle point, centres' squared norms: one whole-buffer store over the entry contents: `k0_pay7 c csq`. -/
theorem pieceB_csq (c : Dev nD) (i : grid0.Coords) (arg1 : Memref sig .tc .vmem S64x4096 .f32) (harg1 : arg1.IsWhole) (arg2 : Memref sig .tc .vmem S500x4096 .f32) (harg2 : arg2.IsWhole) (arg3 : Memref sig .tc .vmem S8x500 .f32) (harg3 : arg3.IsWhole) (arg4 : Memref sig .tc .vmem S1x8 .f32) (harg4 : arg4.IsWhole) (arg5 : Memref sig .tc .vmem S64x8 .f32) (harg5 : arg5.IsWhole) (arg6 : Memref sig .tc .vmem S64x500 .f32) (harg6 : arg6.IsWhole) (arg7 : Memref sig .tc .vmem S500x1 .f32) (harg7 : arg7.IsWhole) (arg8 : Memref sig .tc .vmem S64x1 .f32) (harg8 : arg8.IsWhole) (hc0 : ¬cond0_0 i) (hc1 : ¬cond0_1 i)
    (x0 : Vec F S64x4096 .f32) (x1 : Vec F S500x4096 .f32) (x2 : Vec F S8x500 .f32) (x3 : Vec F S1x8 .f32) (xs0 : Vec F S64x500 .f32) (xs1 : Vec F S500x1 .f32) (xs2 : Vec F S64x1 .f32) :
    sout0_B_1 c i arg1 harg1 arg2 harg2 arg3 harg3 arg4 harg4 arg5 harg5 arg6 harg6 arg7 harg7 arg8 harg8 hc0 hc1 x0 x1 x2 x3 xs0 xs1 xs2 = k0_pay7 x1 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1 xs2)]
  unfold kernelRun0_B
  dsimp only
  sl_unfold_words
  rw [View.canon_unit_zero hz2]
  simp only [View.readAt_eq_ld, harg1.read_unread, harg2.read_unread, harg3.read_unread, harg4.read_unread, harg6.read_unread, harg7.read_unread, harg8.read_unread, View.ld_unit_zero (S := S64x4096) hz2, View.ld_unit_zero (S := S500x4096) hz2, View.ld_unit_zero (S := S8x500) hz2, View.ld_unit_zero (S := S1x8) hz2, View.ld_unit_zero (S := S64x500) hz2, View.ld_unit_zero (S := S500x1) hz2, View.ld_unit_zero (S := S64x1) hz2]

/-- Middle point, batch rows' squared norms: one whole-buffer store over the entry contents: `k0_pay8 x xsq`. -/
theorem pieceB_xsq (c : Dev nD) (i : grid0.Coords) (arg1 : Memref sig .tc .vmem S64x4096 .f32) (harg1 : arg1.IsWhole) (arg2 : Memref sig .tc .vmem S500x4096 .f32) (harg2 : arg2.IsWhole) (arg3 : Memref sig .tc .vmem S8x500 .f32) (harg3 : arg3.IsWhole) (arg4 : Memref sig .tc .vmem S1x8 .f32) (harg4 : arg4.IsWhole) (arg5 : Memref sig .tc .vmem S64x8 .f32) (harg5 : arg5.IsWhole) (arg6 : Memref sig .tc .vmem S64x500 .f32) (harg6 : arg6.IsWhole) (arg7 : Memref sig .tc .vmem S500x1 .f32) (harg7 : arg7.IsWhole) (arg8 : Memref sig .tc .vmem S64x1 .f32) (harg8 : arg8.IsWhole) (hc0 : ¬cond0_0 i) (hc1 : ¬cond0_1 i)
    (x0 : Vec F S64x4096 .f32) (x1 : Vec F S500x4096 .f32) (x2 : Vec F S8x500 .f32) (x3 : Vec F S1x8 .f32) (xs0 : Vec F S64x500 .f32) (xs1 : Vec F S500x1 .f32) (xs2 : Vec F S64x1 .f32) :
    sout0_B_2 c i arg1 harg1 arg2 harg2 arg3 harg3 arg4 harg4 arg5 harg5 arg6 harg6 arg7 harg7 arg8 harg8 hc0 hc1 x0 x1 x2 x3 xs0 xs1 xs2 = k0_pay8 x0 xs2 := by
  unfold sout0_B_2
  rw [View.read_writes_eq_canon _ _ _ (scover0_B_2 c i arg1 harg1 arg2 harg2 arg3 harg3 arg4 harg4 arg5 harg5 arg6 harg6 arg7 harg7 arg8 harg8 hc0 hc1 x0 x1 x2 x3 xs0 xs1 xs2)]
  unfold kernelRun0_B
  dsimp only
  sl_unfold_words
  rw [View.canon_unit_zero hz2]
  simp only [View.readAt_eq_ld, harg1.read_unread, harg2.read_unread, harg3.read_unread, harg4.read_unread, harg6.read_unread, harg7.read_unread, harg8.read_unread, View.ld_unit_zero (S := S64x4096) hz2, View.ld_unit_zero (S := S500x4096) hz2, View.ld_unit_zero (S := S8x500) hz2, View.ld_unit_zero (S := S1x8) hz2, View.ld_unit_zero (S := S64x500) hz2, View.ld_unit_zero (S := S500x1) hz2, View.ld_unit_zero (S := S64x1) hz2]

/-- Last point, cross accumulator: updated exactly as at a middle point, `k0_pay6 x c cross`. -/
theorem pieceC_cross (c : Dev nD) (i : grid0.Coords) (arg1 : Memref sig .tc .vmem S64x4096 .f32) (harg1 : arg1.IsWhole) (arg2 : Memref sig .tc .vmem S500x4096 .f32) (harg2 : arg2.IsWhole) (arg3 : Memref sig .tc .vmem S8x500 .f32) (harg3 : arg3.IsWhole) (arg4 : Memref sig .tc .vmem S1x8 .f32) (harg4 : arg4.IsWhole) (arg5 : Memref sig .tc .vmem S64x8 .f32) (harg5 : arg5.IsWhole) (arg6 : Memref sig .tc .vmem S64x500 .f32) (harg6 : arg6.IsWhole) (arg7 : Memref sig .tc .vmem S500x1 .f32) (harg7 : arg7.IsWhole) (arg8 : Memref sig .tc .vmem S64x1 .f32) (harg8 : arg8.IsWhole) (hc0 : ¬cond0_0 i) (hc1 : cond0_1 i)
    (x0 : Vec F S64x4096 .f32) (x1 : Vec F S500x4096 .f32) (x2 : Vec F S8x500 .f32) (x3 : Vec F S1x8 .f32) (xs0 : Vec F S64x500 .f32) (xs1 : Vec F S500x1 .f32) (xs2 : Vec F S64x1 .f32) :
    sout0_C_0 c i arg1 harg1 arg2 harg2 arg3 harg3 arg4 harg4 arg5 harg5 arg6 harg6 arg7 harg7 arg8 harg8 hc0 hc1 x0 x1 x2 x3 xs0 xs1 xs2 = k0_pay6 x0 x1 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  rw [View.canon_unit_zero hz2]
  simp only [View.readAt_eq_ld, harg1.read_unread, harg2.read_unread, harg3.read_unread, harg4.read_unread, harg6.read_unread, harg7.read_unread, harg8.read_unread, View.ld_unit_zero (S := S64x4096) hz2, View.ld_unit_zero (S := S500x4096) hz2, View.ld_unit_zero (S := S8x500) hz2, View.ld_unit_zero (S := S1x8) hz2, View.ld_unit_zero (S := S64x500) hz2, View.ld_unit_zero (S := S500x1) hz2, View.ld_unit_zero (S := S64x1) hz2]

/-- Last point, centres' squared norms: updated exactly as at a middle point, `k0_pay7 c csq`. -/
theorem pieceC_csq (c : Dev nD) (i : grid0.Coords) (arg1 : Memref sig .tc .vmem S64x4096 .f32) (harg1 : arg1.IsWhole) (arg2 : Memref sig .tc .vmem S500x4096 .f32) (harg2 : arg2.IsWhole) (arg3 : Memref sig .tc .vmem S8x500 .f32) (harg3 : arg3.IsWhole) (arg4 : Memref sig .tc .vmem S1x8 .f32) (harg4 : arg4.IsWhole) (arg5 : Memref sig .tc .vmem S64x8 .f32) (harg5 : arg5.IsWhole) (arg6 : Memref sig .tc .vmem S64x500 .f32) (harg6 : arg6.IsWhole) (arg7 : Memref sig .tc .vmem S500x1 .f32) (harg7 : arg7.IsWhole) (arg8 : Memref sig .tc .vmem S64x1 .f32) (harg8 : arg8.IsWhole) (hc0 : ¬cond0_0 i) (hc1 : cond0_1 i)
    (x0 : Vec F S64x4096 .f32) (x1 : Vec F S500x4096 .f32) (x2 : Vec F S8x500 .f32) (x3 : Vec F S1x8 .f32) (xs0 : Vec F S64x500 .f32) (xs1 : Vec F S500x1 .f32) (xs2 : Vec F S64x1 .f32) :
    sout0_C_1 c i arg1 harg1 arg2 harg2 arg3 harg3 arg4 harg4 arg5 harg5 arg6 harg6 arg7 harg7 arg8 harg8 hc0 hc1 x0 x1 x2 x3 xs0 xs1 xs2 = k0_pay7 x1 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  rw [View.canon_unit_zero hz2]
  simp only [View.readAt_eq_ld, harg1.read_unread, harg2.read_unread, harg3.read_unread, harg4.read_unread, harg6.read_unread, harg7.read_unread, harg8.read_unread, View.ld_unit_zero (S := S64x4096) hz2, View.ld_unit_zero (S := S500x4096) hz2, View.ld_unit_zero (S := S8x500) hz2, View.ld_unit_zero (S := S1x8) hz2, View.ld_unit_zero (S := S64x500) hz2, View.ld_unit_zero (S := S500x1) hz2, View.ld_unit_zero (S := S64x1) hz2]

/-- Last point, batch rows' squared norms: updated exactly as at a middle point, `k0_pay8 x xsq`. -/
theorem pieceC_xsq (c : Dev nD) (i : grid0.Coords) (arg1 : Memref sig .tc .vmem S64x4096 .f32) (harg1 : arg1.IsWhole) (arg2 : Memref sig .tc .vmem S500x4096 .f32) (harg2 : arg2.IsWhole) (arg3 : Memref sig .tc .vmem S8x500 .f32) (harg3 : arg3.IsWhole) (arg4 : Memref sig .tc .vmem S1x8 .f32) (harg4 : arg4.IsWhole) (arg5 : Memref sig .tc .vmem S64x8 .f32) (harg5 : arg5.IsWhole) (arg6 : Memref sig .tc .vmem S64x500 .f32) (harg6 : arg6.IsWhole) (arg7 : Memref sig .tc .vmem S500x1 .f32) (harg7 : arg7.IsWhole) (arg8 : Memref sig .tc .vmem S64x1 .f32) (harg8 : arg8.IsWhole) (hc0 : ¬cond0_0 i) (hc1 : cond0_1 i)
    (x0 : Vec F S64x4096 .f32) (x1 : Vec F S500x4096 .f32) (x2 : Vec F S8x500 .f32) (x3 : Vec F S1x8 .f32) (xs0 : Vec F S64x500 .f32) (xs1 : Vec F S500x1 .f32) (xs2 : Vec F S64x1 .f32) :
    sout0_C_2 c i arg1 harg1 arg2 harg2 arg3 harg3 arg4 harg4 arg5 harg5 arg6 harg6 arg7 harg7 arg8 harg8 hc0 hc1 x0 x1 x2 x3 xs0 xs1 xs2 = k0_pay8 x0 xs2 := by
  unfold sout0_C_2
  rw [View.read_writes_eq_canon _ _ _ (scover0_C_2 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  rw [View.canon_unit_zero hz2]
  simp only [View.readAt_eq_ld, harg1.read_unread, harg2.read_unread, harg3.read_unread, harg4.read_unread, harg6.read_unread, harg7.read_unread, harg8.read_unread, View.ld_unit_zero (S := S64x4096) hz2, View.ld_unit_zero (S := S500x4096) hz2, View.ld_unit_zero (S := S8x500) hz2, View.ld_unit_zero (S := S1x8) hz2, View.ld_unit_zero (S := S64x500) hz2, View.ld_unit_zero (S := S500x1) hz2, View.ld_unit_zero (S := S64x1) hz2]

/-- Last point, the output block: one whole-buffer store of `k0_pay1`, whose loads of the three accumulators come
    AFTER this point's updates and so read the updated values `k0_pay7 c csq`, `k0_pay8 x xsq`, `k0_pay6 x c cross`
    (each a whole-buffer store read back whole), and whose loads of the weights and the bias row read them whole. -/
theorem pieceC_out (c : Dev nD) (i : grid0.Coords) (arg1 : Memref sig .tc .vmem S64x4096 .f32) (harg1 : arg1.IsWhole) (arg2 : Memref sig .tc .vmem S500x4096 .f32) (harg2 : arg2.IsWhole) (arg3 : Memref sig .tc .vmem S8x500 .f32) (harg3 : arg3.IsWhole) (arg4 : Memref sig .tc .vmem S1x8 .f32) (harg4 : arg4.IsWhole) (arg5 : Memref sig .tc .vmem S64x8 .f32) (harg5 : arg5.IsWhole) (arg6 : Memref sig .tc .vmem S64x500 .f32) (harg6 : arg6.IsWhole) (arg7 : Memref sig .tc .vmem S500x1 .f32) (harg7 : arg7.IsWhole) (arg8 : Memref sig .tc .vmem S64x1 .f32) (harg8 : arg8.IsWhole) (hc0 : ¬cond0_0 i) (hc1 : cond0_1 i)
    (x0 : Vec F S64x4096 .f32) (x1 : Vec F S500x4096 .f32) (x2 : Vec F S8x500 .f32) (x3 : Vec F S1x8 .f32) (xs0 : Vec F S64x500 .f32) (xs1 : Vec F S500x1 .f32) (xs2 : Vec F S64x1 .f32) :
    out0_C_4 c i arg1 harg1 arg2 harg2 arg3 harg3 arg4 harg4 arg5 harg5 arg6 harg6 arg7 harg7 arg8 harg8 hc0 hc1 x0 x1 x2 x3 xs0 xs1 xs2
      = k0_pay1 (k0_pay7 x1 xs1) (k0_pay8 x0 xs2) (k0_pay6 x0 x1 xs0) x2 x3 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1 xs2)]
  unfold kernelRun0_C
  dsimp only
  sl_unfold_words
  rw [View.canon_unit_zero hz2]
  simp only [View.readAt_eq_ld, harg1.read_unread, harg2.read_unread, harg3.read_unread, harg4.read_unread, harg6.read_unread, harg7.read_unread, harg8.read_unread, View.ld_unit_zero (S := S64x4096) hz2, View.ld_unit_zero (S := S500x4096) hz2, View.ld_unit_zero (S := S8x500) hz2, View.ld_unit_zero (S := S1x8) hz2, View.ld_unit_zero (S := S64x500) hz2, View.ld_unit_zero (S := S500x1) hz2, View.ld_unit_zero (S := S64x1) hz2, View.readCov_unit_zero (S := S64x500) _ hz2, View.readCov_unit_zero (S := S500x1) _ hz2, View.readCov_unit_zero (S := S64x1) _ hz2]

/-! ## At grid point t -/

/-- After the first point the cross accumulator holds `0 + x₀ · c₀ᵀ` of blocks 0: the first case's contents at the
    point's blocks. -/
theorem step_first_cross (c : Dev nD) (t : Fin cfg0.N) (h0 : t.val % 16 = 0) (h1 : ¬t.val % 16 = 15) :
    (outsAt0 m c t.val t.isLt).2.1 = k0_pay6 (xblk m c t) (cblk m c t) (k0_pay2 (F := F)) := by
  rw [outsAt0_A m c t h0 h1]
  dsimp only
  exact pieceA_cross c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (cblk m c t) (wblk m c t) (bblk m c t)

/-- After the first point the centres' squared norms hold `0 + row sums of c₀ ∘ c₀`. -/
theorem step_first_csq (c : Dev nD) (t : Fin cfg0.N) (h0 : t.val % 16 = 0) (h1 : ¬t.val % 16 = 15) :
    (outsAt0 m c t.val t.isLt).2.2.1 = k0_pay7 (cblk m c t) (k0_pay3 (F := F)) := by
  rw [outsAt0_A m c t h0 h1]
  dsimp only
  exact pieceA_csq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (cblk m c t) (wblk m c t) (bblk m c t)

/-- After the first point the batch rows' squared norms hold `0 + row sums of x₀ ∘ x₀`. -/
theorem step_first_xsq (c : Dev nD) (t : Fin cfg0.N) (h0 : t.val % 16 = 0) (h1 : ¬t.val % 16 = 15) :
    (outsAt0 m c t.val t.isLt).2.2.2 = k0_pay8 (xblk m c t) (k0_pay4 (F := F)) := by
  rw [outsAt0_A m c t h0 h1]
  dsimp only
  exact pieceA_xsq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (cblk m c t) (wblk m c t) (bblk m c t)

/-- After any later point t the cross accumulator holds what point t − 1 left plus `xₜ · cₜᵀ`: the middle and the
    last case update it alike. -/
theorem step_next_cross (c : Dev nD) (t : Fin cfg0.N) (h0 : ¬t.val % 16 = 0) :
    (outsAt0 m c t.val t.isLt).2.1 = k0_pay6 (xblk m c t) (cblk m c t) (prevAt m c t).2.1 := by
  by_cases h1 : t.val % 16 = 15
  · rw [outsAt0_C m c t h0 h1]
    dsimp only
    exact pieceC_cross c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (cblk m c t) (wblk m c t) (bblk m c t) (prevAt m c t).2.1 (prevAt m c t).2.2.1 (prevAt m c t).2.2.2
  · rw [outsAt0_B m c t h0 h1]
    dsimp only
    exact pieceB_cross c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (cblk m c t) (wblk m c t) (bblk m c t) (prevAt m c t).2.1 (prevAt m c t).2.2.1 (prevAt m c t).2.2.2

/-- After any later point t the centres' squared norms hold what point t − 1 left plus the row sums of `cₜ ∘ cₜ`. -/
theorem step_next_csq (c : Dev nD) (t : Fin cfg0.N) (h0 : ¬t.val % 16 = 0) :
    (outsAt0 m c t.val t.isLt).2.2.1 = k0_pay7 (cblk m c t) (prevAt m c t).2.2.1 := by
  by_cases h1 : t.val % 16 = 15
  · rw [outsAt0_C m c t h0 h1]
    dsimp only
    exact pieceC_csq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (cblk m c t) (wblk m c t) (bblk m c t) (prevAt m c t).2.1 (prevAt m c t).2.2.1 (prevAt m c t).2.2.2
  · rw [outsAt0_B m c t h0 h1]
    dsimp only
    exact pieceB_csq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (cblk m c t) (wblk m c t) (bblk m c t) (prevAt m c t).2.1 (prevAt m c t).2.2.1 (prevAt m c t).2.2.2

/-- After any later point t the batch rows' squared norms hold what point t − 1 left plus the row sums of `xₜ ∘ xₜ`. -/
theorem step_next_xsq (c : Dev nD) (t : Fin cfg0.N) (h0 : ¬t.val % 16 = 0) :
    (outsAt0 m c t.val t.isLt).2.2.2 = k0_pay8 (xblk m c t) (prevAt m c t).2.2.2 := by
  by_cases h1 : t.val % 16 = 15
  · rw [outsAt0_C m c t h0 h1]
    dsimp only
    exact pieceC_xsq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (cblk m c t) (wblk m c t) (bblk m c t) (prevAt m c t).2.1 (prevAt m c t).2.2.1 (prevAt m c t).2.2.2
  · rw [outsAt0_B m c t h0 h1]
    dsimp only
    exact pieceB_xsq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (cblk m c t) (wblk m c t) (bblk m c t) (prevAt m c t).2.1 (prevAt m c t).2.2.1 (prevAt m c t).2.2.2

/-- After the last point the output block holds the head `k0_pay1` of the three accumulators as updated AT that
    point (what point t − 1 left plus block t's contribution), the weight matrix and the bias row. -/
theorem step_last_out (c : Dev nD) (t : Fin cfg0.N) (h0 : ¬t.val % 16 = 0) (h1 : t.val % 16 = 15) :
    (outsAt0 m c t.val t.isLt).1
      = k0_pay1 (k0_pay7 (cblk m c t) (prevAt m c t).2.2.1) (k0_pay8 (xblk m c t) (prevAt m c t).2.2.2)
          (k0_pay6 (xblk m c t) (cblk m c t) (prevAt m c t).2.1) (wblk m c t) (bblk m c t) := by
  rw [outsAt0_C m c t h0 h1]
  dsimp only
  exact pieceC_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (cblk m c t) (wblk m c t) (bblk m c t) (prevAt m c t).2.1 (prevAt m c t).2.2.1 (prevAt m c t).2.2.2

end Cert.RbfHead

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.RbfSpec.lean ====
/-
  A radial-basis-function layer followed by a linear head, stated index by index.

  For a batch row b of x (flattened to 65536 features) and a centre j, the squared distance is expanded as
      dist b j = (0 + Σ_K x[b,K]²) − 2 · (Σ_K x[b,K] · c[j,K]) + (0 + Σ_K c[j,K]²),
  the feature is exp (γ' · dist b j) with γ' the single-precision word of −1e-4, and output (b, o) is
      Σ_j feature b j · w[o,j]  +  bias[o].
  Every operation is the exact one on the extended reals; the three float words (zero, two, γ') are kept as words, so
  two programs that spell the same words agree without the words ever being evaluated.

  `headOf` takes the three reductions as parameters, so that a program which obtains them in another order of
  summation is compared reduction by reduction; `headAt` instantiates them with the plain sums over all 65536 features.
-/
import Idealize.ShloMosaic.PureOps.Ideal
import Idealize.ShloMosaic.PureOps.Ideal.Laws
import Idealize.ShloMosaic.Lib.ValueIdx

noncomputable section

namespace Cert.RbfHead

open Idealize.ShloMosaic Idealize.ShloMosaic.ValueIdx

/-- The flattened batch, [64, 65536]. -/
abbrev Sx : Shape := ⟨2, ![64, 65536]⟩
/-- The centres, [500, 65536]. -/
abbrev Sc : Shape := ⟨2, ![500, 65536]⟩
/-- The head's weights, [8, 500]. -/
abbrev Sw : Shape := ⟨2, ![8, 500]⟩
/-- The head's bias, [8]. -/
abbrev Sb : Shape := ⟨1, ![8]⟩

/-- The single-precision zero word, as an extended real. -/
abbrev zeroW : EReal := Ideal.ofBits .f32 0x00000000#32
/-- The single-precision word of 2.0. -/
abbrev twoW : EReal := Ideal.ofBits .f32 0x40000000#32
/-- The single-precision word nearest −1e-4. -/
abbrev negGammaW : EReal := Ideal.ofBits .f32 0xB8D1B717#32

/-- Output (b, o) from the three reductions: `xsq b` and `csq j` the squared norms, `cr b j` the inner product. -/
def headOf (xsq : Fin 64 → EReal) (csq : Fin 500 → EReal) (cr : Fin 64 → Fin 500 → EReal)
    (w : Sw.Idx → EReal) (bias : Fin 8 → EReal) (b : Fin 64) (o : Fin 8) : EReal :=
  (∑ j : Fin 500, Ideal.exp (negGammaW * ((xsq b - twoW * cr b j) + csq j)) * w (ix2 o j)) + bias o

/-- The squared norm of row p of an [a, 65536] array: the sum of its 65536 squares. -/
def rowSq {a : ℕ} (v : (⟨2, ![a, 65536]⟩ : Shape).Idx → EReal) (p : Fin a) : EReal :=
  ∑ K : Fin 65536, v (ix2 p K) * v (ix2 p K)

/-- The inner product of batch row b with centre j over the 65536 features. -/
def cross (xf : Sx.Idx → EReal) (cen : Sc.Idx → EReal) (b : Fin 64) (j : Fin 500) : EReal :=
  ∑ K : Fin 65536, xf (ix2 b K) * cen (ix2 j K)

/-- Output (b, o) of the layer, as a function of the flattened batch, the centres, the weights and the bias. -/
def headAt (xf : Sx.Idx → EReal) (cen : Sc.Idx → EReal) (w : Sw.Idx → EReal) (bias : Sb.Idx → EReal)
    (b : Fin 64) (o : Fin 8) : EReal :=
  headOf (fun b => zeroW + rowSq xf b) (fun j => zeroW + rowSq cen j) (cross xf cen) w (fun o => bias (ix1 o)) b o

end Cert.RbfHead

end
-- ==== Proof.PayAt.lean ====
/-
  Each value the kernel body stores, read at one index, with every operation the exact one on the extended reals.

  At the first grid point the three scratch arrays are set to the splat of the single-precision zero word, so each of
  their entries is that word. At every point the body adds to them the contribution of the staged block of 4096
  columns: entry (b, j) of the cross term gains Σ_k x[b,k] · c[j,k] (a contraction of both operands along their second
  axis; narrowing the operands to half precision first changes nothing here, a format change being the identity),
  entry (j, 0) of the centres' squared norms gains Σ_k c[j,k]², and entry (b, 0) of the batch's squared norms gains
  Σ_k x[b,k]². At the last point entry (b, o) of the output is
      Σ_j exp (γ' · ((xsq[b,0] − 2 · cross[b,j]) + csq[j,0])) · w[o,j]  +  bias[0,o],
  which is the head of RbfSpec.lean taken at the three scratch arrays' entries.

  The laws used: a cast of a shape to itself is the identity; a splat reads its word everywhere; sums, differences,
  products and the exponential act entry by entry; a sum along the second axis reads, at row p, the entries (p, 0),
  (p, 1), …; the view of a vector as a column, the transpose of a column into a row, and the broadcasts of a column
  along its rows and of a row down its columns each read one entry of their operand; and a matrix product into the
  zero splat, contracted over one axis, is the sum over that axis's coordinate of the products of the two operands'
  entries, obtained by carrying the sum over the contraction's index set across its bijection with the coordinate.
-/
import proofs.«160877_j9062380994856_1_alg».proof.Proof.Gen.KernelIdeal.Skeleton
import proofs.«160877_j9062380994856_1_alg».proof.Proof.LibRowOps
import proofs.«160877_j9062380994856_1_alg».proof.Proof.RbfSpec
import Idealize.ShloMosaic.Lib.Pipeline.Value
import Idealize.ShloMosaic.Lib.ValueIdx
import Idealize.ShloMosaic.Lib.ValueLayout
import Idealize.ShloMosaic.PureOps.Ideal.Laws

noncomputable section

namespace Cert.RbfHead

open Cert.KernelIdeal Cert.KernelIdeal.Gen Idealize.ShloMosaic Idealize.ShloMosaic.TcCoe Idealize.SL.Sem Idealize.ShloMosaic.ValueIdx

/-- The cross term's initial value: the zero word at every (b, j). -/
theorem pay2_at (b : Fin 64) (j : Fin 500) : (k0_pay2 (F := Ideal)) (ix2 b j) = zeroW := by
  unfold k0_pay2
  rw [shapeCast_self]
  rfl

/-- The centres' squared norms start at the zero word at every (j, 0). -/
theorem pay3_at (j : Fin 500) (u : Fin 1) : (k0_pay3 (F := Ideal)) (ix2 j u) = zeroW := by
  unfold k0_pay3
  rw [shapeCast_self]
  rfl

/-- The batch's squared norms start at the zero word at every (b, 0). -/
theorem pay4_at (b : Fin 64) (u : Fin 1) : (k0_pay4 (F := Ideal)) (ix2 b u) = zeroW := by
  unfold k0_pay4
  rw [shapeCast_self]
  rfl

/-! ## The two matrix products, read at an index -/

/-- In the product of a batch block with a centre block the left operand's index at output index `i` keeps `i`'s first coordinate on its row axis. -/
theorem cross_lhs_0 (i : S64x500.Idx) (q : dot_S64x4096_S500x4096_S64x500_1_1_0_0_n_n.contr.Idx) :
    (dot_S64x4096_S500x4096_S64x500_1_1_0_0_n_n.lhsIdx i q 0).val = (i 0).val := by
  unfold DotDims.lhsIdx
  rw [dif_neg (show ¬(0 : Fin S64x4096.rank) ∈ dot_S64x4096_S500x4096_S64x500_1_1_0_0_n_n.lhsBatch by decide), dif_pos (show (0 : Fin S64x4096.rank) ∈ dot_S64x4096_S500x4096_S64x500_1_1_0_0_n_n.lhsNonContracting by decide)]
  rfl
/-- … and carries the contraction's coordinate on its column axis. -/
theorem cross_lhs_1 (i : S64x500.Idx) (q : dot_S64x4096_S500x4096_S64x500_1_1_0_0_n_n.contr.Idx) :
    (dot_S64x4096_S500x4096_S64x500_1_1_0_0_n_n.lhsIdx i q 1).val = (q ⟨0, by decide⟩).val :=
  dot_S64x4096_S500x4096_S64x500_1_1_0_0_n_n.lhsIdx_val_of_single rfl i q
/-- The right operand's index keeps `i`'s second coordinate on its row axis (both operands are contracted along their
    columns, so the right operand's rows are the output's columns) … -/
theorem cross_rhs_0 (i : S64x500.Idx) (q : dot_S64x4096_S500x4096_S64x500_1_1_0_0_n_n.contr.Idx) :
    (dot_S64x4096_S500x4096_S64x500_1_1_0_0_n_n.rhsIdx i q 0).val = (i 1).val := by
  unfold DotDims.rhsIdx
  rw [dif_neg (show ¬(0 : Fin S500x4096.rank) ∈ dot_S64x4096_S500x4096_S64x500_1_1_0_0_n_n.rhsBatch by decide), dif_pos (show (0 : Fin S500x4096.rank) ∈ dot_S64x4096_S500x4096_S64x500_1_1_0_0_n_n.rhsNonContracting by decide)]
  rfl
/-- … and carries the contraction's coordinate on its column axis. -/
theorem cross_rhs_1 (i : S64x500.Idx) (q : dot_S64x4096_S500x4096_S64x500_1_1_0_0_n_n.contr.Idx) :
    (dot_S64x4096_S500x4096_S64x500_1_1_0_0_n_n.rhsIdx i q 1).val = (q ⟨0, by decide⟩).val :=
  dot_S64x4096_S500x4096_S64x500_1_1_0_0_n_n.rhsIdx_val_of_single rfl i q

/-- The product of a [64, 4096] block with a [500, 4096] block along their columns, into the zero splat: entry (b, j) is Σ_k x[b,k] · y[j,k]. -/
theorem matmul_cross_apply (x : FVec Ideal S64x4096 .bf16) (y : FVec Ideal S500x4096 .bf16) (b : Fin 64) (j : Fin 500) :
    matmul dot_S64x4096_S500x4096_S64x500_1_1_0_0_n_n none x y (constant (F := Ideal) S64x500 .f32 0x00000000#32) (ix2 b j)
      = ∑ k : Fin 4096, x (ix2 b k) * y (ix2 j k) := by
  simp only [matmul]
  rw [Ideal.matmul_constant_zero_apply, ← Equiv.sum_comp (ValueIdx.contrEquiv1 dot_S64x4096_S500x4096_S64x500_1_1_0_0_n_n 4096 rfl rfl).symm]
  refine Finset.sum_congr rfl fun k _ => ?_
  have hk := ValueIdx.contrEquiv1_symm_val dot_S64x4096_S500x4096_S64x500_1_1_0_0_n_n 4096 rfl rfl k
  have el : dot_S64x4096_S500x4096_S64x500_1_1_0_0_n_n.lhsIdx (ix2 b j) ((ValueIdx.contrEquiv1 dot_S64x4096_S500x4096_S64x500_1_1_0_0_n_n 4096 rfl rfl).symm k) = ix2 b k := funext fun c => Fin.ext (by
    match c with
    | ⟨0, _⟩ => exact cross_lhs_0 _ _
    | ⟨1, _⟩ => exact (cross_lhs_1 _ _).trans hk)
  have er : dot_S64x4096_S500x4096_S64x500_1_1_0_0_n_n.rhsIdx (ix2 b j) ((ValueIdx.contrEquiv1 dot_S64x4096_S500x4096_S64x500_1_1_0_0_n_n 4096 rfl rfl).symm k) = ix2 j k := funext fun c => Fin.ext (by
    match c with
    | ⟨0, _⟩ => exact cross_rhs_0 _ _
    | ⟨1, _⟩ => exact (cross_rhs_1 _ _).trans hk)
  rw [el, er]

/-- In the product of the features with the weights the left operand's index at output index `i` keeps `i`'s first coordinate on its row axis. -/
theorem head_lhs_0 (i : S64x8.Idx) (q : dot_S64x500_S8x500_S64x8_1_1_0_0_n_n.contr.Idx) :
    (dot_S64x500_S8x500_S64x8_1_1_0_0_n_n.lhsIdx i q 0).val = (i 0).val := by
  unfold DotDims.lhsIdx
  rw [dif_neg (show ¬(0 : Fin S64x500.rank) ∈ dot_S64x500_S8x500_S64x8_1_1_0_0_n_n.lhsBatch by decide), dif_pos (show (0 : Fin S64x500.rank) ∈ dot_S64x500_S8x500_S64x8_1_1_0_0_n_n.lhsNonContracting by decide)]
  rfl
/-- … and carries the contraction's coordinate on its column axis. -/
theorem head_lhs_1 (i : S64x8.Idx) (q : dot_S64x500_S8x500_S64x8_1_1_0_0_n_n.contr.Idx) :
    (dot_S64x500_S8x500_S64x8_1_1_0_0_n_n.lhsIdx i q 1).val = (q ⟨0, by decide⟩).val :=
  dot_S64x500_S8x500_S64x8_1_1_0_0_n_n.lhsIdx_val_of_single rfl i q
/-- The right operand's index keeps `i`'s second coordinate on its row axis (both operands are contracted along their
    columns, so the right operand's rows are the output's columns) … -/
theorem head_rhs_0 (i : S64x8.Idx) (q : dot_S64x500_S8x500_S64x8_1_1_0_0_n_n.contr.Idx) :
    (dot_S64x500_S8x500_S64x8_1_1_0_0_n_n.rhsIdx i q 0).val = (i 1).val := by
  unfold DotDims.rhsIdx
  rw [dif_neg (show ¬(0 : Fin S8x500.rank) ∈ dot_S64x500_S8x500_S64x8_1_1_0_0_n_n.rhsBatch by decide), dif_pos (show (0 : Fin S8x500.rank) ∈ dot_S64x500_S8x500_S64x8_1_1_0_0_n_n.rhsNonContracting by decide)]
  rfl
/-- … and carries the contraction's coordinate on its column axis. -/
theorem head_rhs_1 (i : S64x8.Idx) (q : dot_S64x500_S8x500_S64x8_1_1_0_0_n_n.contr.Idx) :
    (dot_S64x500_S8x500_S64x8_1_1_0_0_n_n.rhsIdx i q 1).val = (q ⟨0, by decide⟩).val :=
  dot_S64x500_S8x500_S64x8_1_1_0_0_n_n.rhsIdx_val_of_single rfl i q

/-- The product of the [64, 500] features with the [8, 500] weights along their columns, into the zero splat: entry (b, o) is Σ_j x[b,j] · y[o,j]. -/
theorem matmul_head_apply (x : FVec Ideal S64x500 .f32) (y : FVec Ideal S8x500 .f32) (b : Fin 64) (o : Fin 8) :
    matmul dot_S64x500_S8x500_S64x8_1_1_0_0_n_n (some .fp32) x y (constant (F := Ideal) S64x8 .f32 0x00000000#32) (ix2 b o)
      = ∑ k : Fin 500, x (ix2 b k) * y (ix2 o k) := by
  simp only [matmul]
  rw [Ideal.matmul_constant_zero_apply, ← Equiv.sum_comp (ValueIdx.contrEquiv1 dot_S64x500_S8x500_S64x8_1_1_0_0_n_n 500 rfl rfl).symm]
  refine Finset.sum_congr rfl fun k _ => ?_
  have hk := ValueIdx.contrEquiv1_symm_val dot_S64x500_S8x500_S64x8_1_1_0_0_n_n 500 rfl rfl k
  have el : dot_S64x500_S8x500_S64x8_1_1_0_0_n_n.lhsIdx (ix2 b o) ((ValueIdx.contrEquiv1 dot_S64x500_S8x500_S64x8_1_1_0_0_n_n 500 rfl rfl).symm k) = ix2 b k := funext fun c => Fin.ext (by
    match c with
    | ⟨0, _⟩ => exact head_lhs_0 _ _
    | ⟨1, _⟩ => exact (head_lhs_1 _ _).trans hk)
  have er : dot_S64x500_S8x500_S64x8_1_1_0_0_n_n.rhsIdx (ix2 b o) ((ValueIdx.contrEquiv1 dot_S64x500_S8x500_S64x8_1_1_0_0_n_n 500 rfl rfl).symm k) = ix2 o k := funext fun c => Fin.ext (by
    match c with
    | ⟨0, _⟩ => exact head_rhs_0 _ _
    | ⟨1, _⟩ => exact (head_rhs_1 _ _).trans hk)
  rw [el, er]

/-! ## The three accumulations and the output -/

/-- One point's update of the cross term: entry (b, j) gains the block's inner product Σ_k x[b,k] · c[j,k]. -/
theorem pay6_at (x0 : Vec Ideal S64x4096 .f32) (x1 : Vec Ideal S500x4096 .f32) (acc : Vec Ideal S64x500 .f32)
    (b : Fin 64) (j : Fin 500) :
    k0_pay6 x0 x1 acc (ix2 b j) = acc (ix2 b j) + ∑ k : Fin 4096, x0 (ix2 b k) * x1 (ix2 j k) := by
  unfold k0_pay6 k0_pay5
  dsimp only
  rw [shapeCast_self, shapeCast_self]
  refine (addf_apply acc _ (ix2 b j)).trans (congrArg (acc (ix2 b j) + ·) ?_)
  exact matmul_cross_apply _ _ b j

/-- One point's update of the centres' squared norms: entry (j, 0) gains Σ_k c[j,k]², the row sum of the squared block
    viewed as a column. -/
theorem pay7_at (x1 : Vec Ideal S500x4096 .f32) (acc : Vec Ideal S500x1 .f32) (j : Fin 500) (u : Fin 1) :
    k0_pay7 x1 acc (ix2 j u) = acc (ix2 j u) + ∑ k : Fin 4096, x1 (ix2 j k) * x1 (ix2 j k) := by
  unfold k0_pay7
  dsimp only
  rw [shapeCast_self]
  refine (addf_apply acc _ (ix2 j u)).trans (congrArg (acc (ix2 j u) + ·) ?_)
  refine (RowOps.shapeCast_a_a1_apply _ _ j u).trans ?_
  refine (RowOps.multiReduction_add_row _ _ _ _ _ j).trans ?_
  rfl

/-- One point's update of the batch's squared norms: entry (b, 0) gains Σ_k x[b,k]². -/
theorem pay8_at (x0 : Vec Ideal S64x4096 .f32) (acc : Vec Ideal S64x1 .f32) (b : Fin 64) (u : Fin 1) :
    k0_pay8 x0 acc (ix2 b u) = acc (ix2 b u) + ∑ k : Fin 4096, x0 (ix2 b k) * x0 (ix2 b k) := by
  unfold k0_pay8 k0_pay5
  dsimp only
  rw [shapeCast_self, shapeCast_self]
  refine (addf_apply acc _ (ix2 b u)).trans (congrArg (acc (ix2 b u) + ·) ?_)
  refine (RowOps.shapeCast_a_a1_apply _ _ b u).trans ?_
  refine (RowOps.multiReduction_add_row _ _ _ _ _ b).trans ?_
  rfl

/-- The output at (b, o): the head over the three scratch arrays' entries. The column of batch norms is broadcast along
    its rows, the column of centre norms is transposed into a row and broadcast down the columns, so the exponent at
    (b, j) is γ' · ((xsq[b,0] − 2 · cross[b,j]) + csq[j,0]); the features are then contracted with the weights over j and
    the bias row, broadcast down the columns, is added. -/
theorem pay1_at (v33 : Vec Ideal S500x1 .f32) (v35 : Vec Ideal S64x1 .f32) (v36 : Vec Ideal S64x500 .f32)
    (v46 : Vec Ideal S8x500 .f32) (v48 : Vec Ideal S1x8 .f32) (b : Fin 64) (o : Fin 8) :
    k0_pay1 v33 v35 v36 v46 v48 (ix2 b o)
      = headOf (fun b => v35 (ix2 b (0 : Fin 1))) (fun j => v33 (ix2 j (0 : Fin 1))) (fun b j => v36 (ix2 b j)) v46
          (fun o => v48 (ix2 (0 : Fin 1) o)) b o := by
  unfold k0_pay1 headOf
  dsimp only
  rw [shapeCast_self]
  refine (addf_apply _ _ (ix2 b o)).trans ?_
  refine congr (congrArg HAdd.hAdd ?_) ?_
  · refine (matmul_head_apply _ _ b o).trans (Finset.sum_congr rfl fun j _ => congrArg (· * v46 (ix2 o j)) ?_)
    refine congrArg Ideal.exp (congrArg (negGammaW * ·) ?_)
    refine congr (congrArg HAdd.hAdd (congrArg (· - twoW * v36 (ix2 b j)) ?_)) ?_
    · exact RowOps.broadcastTo_a1_ab_apply v35 _ b j
    · exact (broadcastTo_1b_ab_apply _ _ b j).trans (transpose_ix2_apply v33 _ (0 : Fin 1) j)
  · exact broadcastTo_1b_ab_apply v48 _ b o

end Cert.RbfHead

end
-- ==== Proof.BlockRead.lean ====
/-
  What one grid point's staged blocks hold, read off the arrays as the kernel region finds them.

  The feature axis of 65536 is 16 blocks of 4096. A window's block at point t is a rectangle of its array: on each
  axis, the array coordinate of an entry is (the block's index on that axis) × (the block's extent there) + (the entry's
  coordinate inside the block). For the flattened batch and for the centres the block index at point t is (0, t) and the
  extents are (all rows, 4096), so entry (r, k) of block t is entry (r, 4096·t + k) of the array. For the weight matrix
  and the bias row the block index is (0, 0) and the extents are the array's own, so the block is the whole array at
  every point. The block indices are decided once, for all 16 points.

  The arrays themselves: nothing before the region writes the centres or the weights, so they are the launch
  arguments; the batch is the [64, 256, 256] argument reshaped to [64, 65536]; the bias row is the [8] argument
  reshaped to [1, 8], and a reshape keeps row-major positions, so its entry (0, o), at position 0·8 + o, is the
  argument's entry o. Every statement holds for any model F of the float operations: only indices are computed.
-/
import proofs.«160877_j9062380994856_1_alg».proof.Proof.Blocks
import Idealize.ShloMosaic.Lib.Pipeline.Value
import Idealize.ShloMosaic.Lib.ValueIdx
import Idealize.ShloMosaic.Lib.ValueLayout
import Idealize.ShloMosaic.Lib.StableHlo.Run

noncomputable section

namespace Cert.RbfHead

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- Column k of block t is a column of the array: 4096·t + k < 65536 for t < 16, k < 4096. -/
theorem col_lt (t : Fin cfg0.N) (k : Fin 4096) : t.val * 4096 + k.val < 65536 := by
  have h1 := t.isLt; have h2 : cfg0.N = 16 := N_0; have h3 := k.isLt; omega

/-- The batch window's block index at point t is (0, t). -/
private theorem batch_index : ∀ t : Fin cfg0.N, win0_0.index t (0 : Fin 2) = 0 ∧ win0_0.index t (1 : Fin 2) = t.val :=
  (by decide +kernel : ∀ t : Fin grid0.N, _)

/-- The centres window's block index at point t is (0, t). -/
private theorem centres_index : ∀ t : Fin cfg0.N, win0_1.index t (0 : Fin 2) = 0 ∧ win0_1.index t (1 : Fin 2) = t.val :=
  (by decide +kernel : ∀ t : Fin grid0.N, _)

/-- The weights window's block index is (0, 0) at every point. -/
private theorem weights_index : ∀ t : Fin cfg0.N, win0_2.index t (0 : Fin 2) = 0 ∧ win0_2.index t (1 : Fin 2) = 0 :=
  (by decide +kernel : ∀ t : Fin grid0.N, _)

/-- The bias window's block index is (0, 0) at every point. -/
private theorem bias_index : ∀ t : Fin cfg0.N, win0_3.index t (0 : Fin 2) = 0 ∧ win0_3.index t (1 : Fin 2) = 0 :=
  (by decide +kernel : ∀ t : Fin grid0.N, _)

/-- Entry (b, k) of the batch's block t is entry (b, 4096·t + k) of the flattened batch: the block's rectangle starts
    at row 0·64 and column t·4096. -/
theorem xblk_at (c : Dev nD) (t : Fin cfg0.N) (b : Fin 64) (k : Fin 4096) :
    xblk m c t (ix2 b k) = xarr m c (ix2 b ⟨t.val * 4096 + k.val, col_lt t k⟩) := by
  show V m c main_v0 (((cfg0.win 0).blk t).view.emb (ix2 b k)) = V m c main_v0 (ix2 b ⟨t.val * 4096 + k.val, col_lt t k⟩)
  refine congrArg _ ?_
  obtain ⟨e0, e1⟩ := batch_index t
  funext a; apply Fin.ext
  match a with
  | ⟨0, _⟩ => show win0_0.index t (0 : Fin 2) * 64 + 1 * b.val = b.val; omega
  | ⟨1, _⟩ => show win0_0.index t (1 : Fin 2) * 4096 + 1 * k.val = t.val * 4096 + k.val; omega

/-- Entry (j, k) of the centres' block t is entry (j, 4096·t + k) of the centres: the block's rectangle starts at row
    0·500 and column t·4096. -/
theorem cblk_at (c : Dev nD) (t : Fin cfg0.N) (j : Fin 500) (k : Fin 4096) :
    cblk m c t (ix2 j k) = carr m c (ix2 j ⟨t.val * 4096 + k.val, col_lt t k⟩) := by
  show V m c main_arg1 (((cfg0.win 1).blk t).view.emb (ix2 j k)) = V m c main_arg1 (ix2 j ⟨t.val * 4096 + k.val, col_lt t k⟩)
  refine congrArg _ ?_
  obtain ⟨e0, e1⟩ := centres_index t
  funext a; apply Fin.ext
  match a with
  | ⟨0, _⟩ => show win0_1.index t (0 : Fin 2) * 500 + 1 * j.val = j.val; omega
  | ⟨1, _⟩ => show win0_1.index t (1 : Fin 2) * 4096 + 1 * k.val = t.val * 4096 + k.val; omega

/-- The weights' block is the whole [8, 500] matrix at every point: block (0, 0) of extents (8, 500) starts at the
    origin, so each entry sits at its own index. -/
theorem wblk_eq (c : Dev nD) (t : Fin cfg0.N) : wblk m c t = warr m c := by
  funext y
  show V m c main_arg2 (((cfg0.win 2).blk t).view.emb y) = V m c main_arg2 y
  refine congrArg _ ?_
  obtain ⟨e0, e1⟩ := weights_index t
  funext a; apply Fin.ext
  match a with
  | ⟨0, _⟩ => show win0_2.index t (0 : Fin 2) * 8 + 1 * (y 0).val = (y 0).val; omega
  | ⟨1, _⟩ => show win0_2.index t (1 : Fin 2) * 500 + 1 * (y 1).val = (y 1).val; omega

/-- The bias's block is the whole [1, 8] row at every point: block (0, 0) of extents (1, 8) starts at the origin. -/
theorem bblk_eq (c : Dev nD) (t : Fin cfg0.N) : bblk m c t = barr m c := by
  funext y
  show V m c main_v1 (((cfg0.win 3).blk t).view.emb y) = V m c main_v1 y
  refine congrArg _ ?_
  obtain ⟨e0, e1⟩ := bias_index t
  funext a; apply Fin.ext
  match a with
  | ⟨0, _⟩ => show win0_3.index t (0 : Fin 2) * 1 + 1 * (y 0).val = (y 0).val; omega
  | ⟨1, _⟩ => show win0_3.index t (1 : Fin 2) * 8 + 1 * (y 1).val = (y 1).val; omega

/-- The flattened batch the region finds is the [64, 256, 256] argument reshaped to [64, 65536]: the first operation
    before the region writes it, and the second writes another array. -/
theorem xarr_eq (c : Dev nD) :
    xarr m c = shapeCast S64x65536 (m ((c.tc : Thread nD τ).loc main_arg0)) shapeCasts_S64x256x256_S64x65536 := by
  show (V m c main_v0 : S64x65536.Idx → Elt F .f32) = _
  dsimp only [Gen.V, Gen.hostOps0]
  after_results
  rfl

/-- The centres the region finds are the argument as launched: no operation before the region writes them. -/
theorem carr_eq (c : Dev nD) : carr m c = m ((c.tc : Thread nD τ).loc main_arg1) := V_main_arg1 m c

/-- The weights the region finds are the argument as launched: no operation before the region writes them. -/
theorem warr_eq (c : Dev nD) : warr m c = m ((c.tc : Thread nD τ).loc main_arg2) := V_main_arg2 m c

/-- The bias row the region finds is the [8] argument reshaped to [1, 8]: the second operation before the region
    writes it. -/
private theorem bias_row_eq (c : Dev nD) :
    barr m c = shapeCast S1x8 (m ((c.tc : Thread nD τ).loc main_arg3)) shapeCasts_S8_S1x8 := by
  show (V m c main_v1 : S1x8.Idx → Elt F .f32) = _
  dsimp only [Gen.V, Gen.hostOps0]
  after_results
  rfl

/-- Entry (0, o) of the bias row is entry o of the [8] argument: the reshape keeps row-major positions, and
    0·8 + o = o. -/
theorem barr_at (c : Dev nD) (o : Fin 8) :
    barr m c (ix2 (0 : Fin 1) o) = m ((c.tc : Thread nD τ).loc main_arg3) (ix1 o) := by
  rw [bias_row_eq]
  exact shapeCast_a_1a_apply _ shapeCasts_S8_S1x8 (0 : Fin 1) o

end Cert.RbfHead

end
-- ==== Proof.BlockSum.lean ====
/-
  A sum over a·b consecutive positions, taken block by block.

  The positions 0 … a·b − 1 split into a blocks of b: position K = s·b + k lies in block s = K / b at offset k.
  Addition being commutative and associative, the sum over all positions is the sum over the blocks of each
  block's own sum — no finiteness or sign condition is involved, so the law holds in any commutative monoid, the
  extended reals included (where ⊤ + ⊥ is defined and addition is still associative).
  The outer sum is written over `Finset.range a` with the summand extended by zero past the last block, the form in
  which a left-to-right accumulation over the blocks presents it.
-/
import Mathlib.Algebra.BigOperators.Fin
import Mathlib.Algebra.BigOperators.Intervals
import Mathlib.Data.Fintype.BigOperators

namespace Cert.RbfHead

open Finset

/-- A range sum over `a * b` positions is the sum, over the `a` blocks, of each block's `b` positions. -/
theorem sum_range_mul_blocks {M : Type*} [AddCommMonoid M] (f : ℕ → M) (a b : ℕ) :
    ∑ K ∈ range (a * b), f K = ∑ s ∈ range a, ∑ k ∈ range b, f (s * b + k) := by
  induction a with
  | zero => simp
  | succ a ih => rw [Nat.succ_mul, sum_range_add, ih, sum_range_succ]

/-- The same for a summand given on `Fin n` with `n = a * b`: block `s` contributes the sum of its `b` positions
    `s * b + k`, and the summand past the last block is zero. -/
theorem sum_fin_blocks {M : Type*} [AddCommMonoid M] {n : ℕ} (a b : ℕ) (hn : n = a * b) (F : Fin n → M) :
    ∑ K : Fin n, F K
      = ∑ s ∈ range a, if hs : s < a then ∑ k : Fin b, F ⟨s * b + k.val, by
          subst hn
          calc s * b + k.val < s * b + b := Nat.add_lt_add_left k.isLt _
            _ = (s + 1) * b := (Nat.succ_mul s b).symm
            _ ≤ a * b := Nat.mul_le_mul_right b hs⟩ else 0 := by
  subst hn
  rw [sum_fin_eq_sum_range, sum_range_mul_blocks]
  refine sum_congr rfl fun s hs => ?_
  have hs' : s < a := mem_range.mp hs
  rw [dif_pos hs', sum_fin_eq_sum_range]
  refine sum_congr rfl fun k hk => ?_
  have hk' : k < b := mem_range.mp hk
  have hlt : s * b + k < a * b :=
    calc s * b + k < s * b + b := Nat.add_lt_add_left hk' _
      _ = (s + 1) * b := (Nat.succ_mul s b).symm
      _ ≤ a * b := Nat.mul_le_mul_right b hs'
  rw [dif_pos hlt, dif_pos hk']

end Cert.RbfHead
-- ==== Proof.Fold.lean ====
/-
  The three running sums, point by point, and what the last point stores.

  Write X for the flattened batch [64, 65536] and C for the centres [500, 65536] as the kernel region finds them, and cut
  the 65536 features into 16 blocks of 4096. Point s adds to three accumulators the contribution of block s alone:
      cross[b, j] += Σ_k X[b, 4096 s + k] · C[j, 4096 s + k],   csq[j] += Σ_k C[j, 4096 s + k]²,   xsq[b] += Σ_k X[b, 4096 s + k]².
  Point 0 first stores the zero word, so after point n each accumulator holds the zero word plus the contributions of
  blocks 0 … n (induction on n: the step at point n + 1 adds block n + 1's contribution to what point n left). After the
  last point, n = 15, the sixteen contributions are every feature exactly once, and regrouping a sum block by block
  changes nothing in a commutative monoid, so the accumulators are the zero word plus the full squared norms and the full
  inner product. The last point then stores, at (b, o), the head of exp(γ'·((xsq[b] − 2·cross[b, j]) + csq[j])) against
  the weights, plus the bias: the specification `headAt` of X, C, the weights and the bias. The inner product in the
  specification carries no initial word; there the zero word is evaluated (it is the real 0) and dropped.
-/
import proofs.«160877_j9062380994856_1_alg».proof.Proof.Steps
import proofs.«160877_j9062380994856_1_alg».proof.Proof.PayAt
import proofs.«160877_j9062380994856_1_alg».proof.Proof.BlockRead
import proofs.«160877_j9062380994856_1_alg».proof.Proof.BlockSum
import proofs.«160877_j9062380994856_1_alg».proof.Proof.RbfSpec

noncomputable section

namespace Cert.RbfHead

open Cert.KernelIdeal Cert.KernelIdeal.Gen Idealize.ShloMosaic Idealize.ShloMosaic.TcCoe Idealize.SL.Sem
open Idealize.ShloMosaic.ValueIdx Finset

variable (m : (ℓ : Loc nD τ sig) → Buf (Elt Ideal) ℓ)

/-- The grid has sixteen points. -/
theorem grid_sixteen : cfg0.N = 16 := N_0

/-! ## One block's contribution to each accumulator (zero past the last block) -/

/-- Block s's part of the inner product of batch row b with centre j. -/
def crossBlk (c : Dev nD) (s : ℕ) (b : Fin 64) (j : Fin 500) : EReal :=
  if h : s < cfg0.N then ∑ k : Fin 4096, xblk m c ⟨s, h⟩ (ix2 b k) * cblk m c ⟨s, h⟩ (ix2 j k) else 0

/-- Block s's part of centre j's squared norm. -/
def csqBlk (c : Dev nD) (s : ℕ) (j : Fin 500) : EReal :=
  if h : s < cfg0.N then ∑ k : Fin 4096, cblk m c ⟨s, h⟩ (ix2 j k) * cblk m c ⟨s, h⟩ (ix2 j k) else 0

/-- Block s's part of batch row b's squared norm. -/
def xsqBlk (c : Dev nD) (s : ℕ) (b : Fin 64) : EReal :=
  if h : s < cfg0.N then ∑ k : Fin 4096, xblk m c ⟨s, h⟩ (ix2 b k) * xblk m c ⟨s, h⟩ (ix2 b k) else 0

/-! ## The accumulators after point n -/

/-- After point n the inner-product accumulator holds the zero word plus the parts of blocks 0 … n. -/
theorem cross_after (c : Dev nD) : ∀ (n : ℕ) (hn : n < cfg0.N) (b : Fin 64) (j : Fin 500),
    (outsAt0 m c n hn).2.1 (ix2 b j) = zeroW + ∑ s ∈ range (n + 1), crossBlk m c s b j
  | 0, hn, b, j => by
    have e := step_first_cross m c ⟨0, hn⟩ (Nat.zero_mod 16) (by show ¬(0 % 16 = 15); decide)
    refine (congrFun e (ix2 b j)).trans ?_
    refine (pay6_at (xblk m c ⟨0, hn⟩) (cblk m c ⟨0, hn⟩) (k0_pay2 (F := Ideal)) b j).trans ?_
    rw [pay2_at, sum_range_succ, sum_range_zero, zero_add]
    unfold crossBlk
    rw [dif_pos hn]
  | n + 1, hn, b, j => by
    have hN : n + 1 < 16 := lt_of_lt_of_eq hn grid_sixteen
    have h0 : ¬(⟨n + 1, hn⟩ : Fin cfg0.N).val % 16 = 0 := by show ¬((n + 1) % 16 = 0); omega
    have e := step_next_cross m c ⟨n + 1, hn⟩ h0
    refine (congrFun e (ix2 b j)).trans ?_
    refine (pay6_at (xblk m c ⟨n + 1, hn⟩) (cblk m c ⟨n + 1, hn⟩) (prevAt m c ⟨n + 1, hn⟩).2.1 b j).trans ?_
    rw [show (prevAt m c ⟨n + 1, hn⟩).2.1 (ix2 b j) = zeroW + ∑ s ∈ range (n + 1), crossBlk m c s b j from
      cross_after c n (Nat.lt_of_succ_lt hn) b j]
    rw [sum_range_succ _ (n + 1), ← add_assoc]
    congr 1
    unfold crossBlk
    rw [dif_pos hn]

/-- After point n the centres' squared-norm accumulator (a column) holds the zero word plus the parts of blocks 0 … n. -/
theorem csq_after (c : Dev nD) : ∀ (n : ℕ) (hn : n < cfg0.N) (j : Fin 500) (u : Fin 1),
    (outsAt0 m c n hn).2.2.1 (ix2 j u) = zeroW + ∑ s ∈ range (n + 1), csqBlk m c s j
  | 0, hn, j, u => by
    have e := step_first_csq m c ⟨0, hn⟩ (Nat.zero_mod 16) (by show ¬(0 % 16 = 15); decide)
    refine (congrFun e (ix2 j u)).trans ?_
    refine (pay7_at (cblk m c ⟨0, hn⟩) (k0_pay3 (F := Ideal)) j u).trans ?_
    rw [pay3_at, sum_range_succ, sum_range_zero, zero_add]
    unfold csqBlk
    rw [dif_pos hn]
  | n + 1, hn, j, u => by
    have hN : n + 1 < 16 := lt_of_lt_of_eq hn grid_sixteen
    have h0 : ¬(⟨n + 1, hn⟩ : Fin cfg0.N).val % 16 = 0 := by show ¬((n + 1) % 16 = 0); omega
    have e := step_next_csq m c ⟨n + 1, hn⟩ h0
    refine (congrFun e (ix2 j u)).trans ?_
    refine (pay7_at (cblk m c ⟨n + 1, hn⟩) (prevAt m c ⟨n + 1, hn⟩).2.2.1 j u).trans ?_
    rw [show (prevAt m c ⟨n + 1, hn⟩).2.2.1 (ix2 j u) = zeroW + ∑ s ∈ range (n + 1), csqBlk m c s j from
      csq_after c n (Nat.lt_of_succ_lt hn) j u]
    rw [sum_range_succ _ (n + 1), ← add_assoc]
    congr 1
    unfold csqBlk
    rw [dif_pos hn]

/-- After point n the batch's squared-norm accumulator (a column) holds the zero word plus the parts of blocks 0 … n. -/
theorem xsq_after (c : Dev nD) : ∀ (n : ℕ) (hn : n < cfg0.N) (b : Fin 64) (u : Fin 1),
    (outsAt0 m c n hn).2.2.2 (ix2 b u) = zeroW + ∑ s ∈ range (n + 1), xsqBlk m c s b
  | 0, hn, b, u => by
    have e := step_first_xsq m c ⟨0, hn⟩ (Nat.zero_mod 16) (by show ¬(0 % 16 = 15); decide)
    refine (congrFun e (ix2 b u)).trans ?_
    refine (pay8_at (xblk m c ⟨0, hn⟩) (k0_pay4 (F := Ideal)) b u).trans ?_
    rw [pay4_at, sum_range_succ, sum_range_zero, zero_add]
    unfold xsqBlk
    rw [dif_pos hn]
  | n + 1, hn, b, u => by
    have hN : n + 1 < 16 := lt_of_lt_of_eq hn grid_sixteen
    have h0 : ¬(⟨n + 1, hn⟩ : Fin cfg0.N).val % 16 = 0 := by show ¬((n + 1) % 16 = 0); omega
    have e := step_next_xsq m c ⟨n + 1, hn⟩ h0
    refine (congrFun e (ix2 b u)).trans ?_
    refine (pay8_at (xblk m c ⟨n + 1, hn⟩) (prevAt m c ⟨n + 1, hn⟩).2.2.2 b u).trans ?_
    rw [show (prevAt m c ⟨n + 1, hn⟩).2.2.2 (ix2 b u) = zeroW + ∑ s ∈ range (n + 1), xsqBlk m c s b from
      xsq_after c n (Nat.lt_of_succ_lt hn) b u]
    rw [sum_range_succ _ (n + 1), ← add_assoc]
    congr 1
    unfold xsqBlk
    rw [dif_pos hn]

/-! ## The sixteen blocks are every feature once -/

/-- The sixteen block parts of a squared norm of the batch add up to the whole row's. -/
theorem sum_xsqBlk (c : Dev nD) (b : Fin 64) : ∑ s ∈ range 16, xsqBlk m c s b = rowSq (a := 64) (xarr m c) b := by
  unfold rowSq
  rw [sum_fin_blocks 16 4096 (by norm_num) (fun K : Fin 65536 => xarr m c (ix2 b K) * xarr m c (ix2 b K))]
  refine sum_congr rfl fun s hs => ?_
  have hs16 : s < 16 := mem_range.mp hs
  have hsN : s < cfg0.N := lt_of_lt_of_eq hs16 grid_sixteen.symm
  unfold xsqBlk
  rw [dif_pos hsN, dif_pos hs16]
  refine sum_congr rfl fun k _ => ?_
  rw [xblk_at m c ⟨s, hsN⟩ b k]

/-- The sixteen block parts of a centre's squared norm add up to the whole row's. -/
theorem sum_csqBlk (c : Dev nD) (j : Fin 500) : ∑ s ∈ range 16, csqBlk m c s j = rowSq (a := 500) (carr m c) j := by
  unfold rowSq
  rw [sum_fin_blocks 16 4096 (by norm_num) (fun K : Fin 65536 => carr m c (ix2 j K) * carr m c (ix2 j K))]
  refine sum_congr rfl fun s hs => ?_
  have hs16 : s < 16 := mem_range.mp hs
  have hsN : s < cfg0.N := lt_of_lt_of_eq hs16 grid_sixteen.symm
  unfold csqBlk
  rw [dif_pos hsN, dif_pos hs16]
  refine sum_congr rfl fun k _ => ?_
  rw [cblk_at m c ⟨s, hsN⟩ j k]

/-- The sixteen block parts of an inner product add up to the inner product over all features. -/
theorem sum_crossBlk (c : Dev nD) (b : Fin 64) (j : Fin 500) :
    ∑ s ∈ range 16, crossBlk m c s b j = cross (xarr m c) (carr m c) b j := by
  unfold cross
  rw [sum_fin_blocks 16 4096 (by norm_num) (fun K : Fin 65536 => xarr m c (ix2 b K) * carr m c (ix2 j K))]
  refine sum_congr rfl fun s hs => ?_
  have hs16 : s < 16 := mem_range.mp hs
  have hsN : s < cfg0.N := lt_of_lt_of_eq hs16 grid_sixteen.symm
  unfold crossBlk
  rw [dif_pos hsN, dif_pos hs16]
  refine sum_congr rfl fun k _ => ?_
  rw [xblk_at m c ⟨s, hsN⟩ b k, cblk_at m c ⟨s, hsN⟩ j k]

/-! ## What the last point stores -/

/-- The head depends on its five ingredients only through their values. -/
theorem headOf_congr {xsq xsq' : Fin 64 → EReal} {csq csq' : Fin 500 → EReal} {cr cr' : Fin 64 → Fin 500 → EReal}
    {w w' : Sw.Idx → EReal} {bias bias' : Fin 8 → EReal} (h1 : xsq = xsq') (h2 : csq = csq') (h3 : cr = cr') (h4 : w = w')
    (h5 : bias = bias') (b : Fin 64) (o : Fin 8) : headOf xsq csq cr w bias b o = headOf xsq' csq' cr' w' bias' b o := by
  subst h1 h2 h3 h4 h5; rfl

/-- After the last point the batch's squared-norm column holds the zero word plus each row's full squared norm. -/
theorem xsq_last (c : Dev nD) (t : Fin cfg0.N) (ht : t.val = 15) (b : Fin 64) :
    (outsAt0 m c t.val t.isLt).2.2.2 (ix2 b (0 : Fin 1)) = zeroW + rowSq (a := 64) (xarr m c) b := by
  rw [xsq_after m c t.val t.isLt b 0, ht]
  exact congrArg (fun z : EReal => zeroW + z) (sum_xsqBlk m c b)

/-- After the last point the centres' squared-norm column holds the zero word plus each centre's full squared norm. -/
theorem csq_last (c : Dev nD) (t : Fin cfg0.N) (ht : t.val = 15) (j : Fin 500) :
    (outsAt0 m c t.val t.isLt).2.2.1 (ix2 j (0 : Fin 1)) = zeroW + rowSq (a := 500) (carr m c) j := by
  rw [csq_after m c t.val t.isLt j 0, ht]
  exact congrArg (fun z : EReal => zeroW + z) (sum_csqBlk m c j)

/-- After the last point the inner-product accumulator holds the full inner products: the zero word is the real 0. -/
theorem cross_last (c : Dev nD) (t : Fin cfg0.N) (ht : t.val = 15) (b : Fin 64) (j : Fin 500) :
    (outsAt0 m c t.val t.isLt).2.1 (ix2 b j) = cross (xarr m c) (carr m c) b j := by
  rw [cross_after m c t.val t.isLt b j, ht]
  refine (congrArg (fun z : EReal => zeroW + z) (sum_crossBlk m c b j)).trans ?_
  show Ideal.ofBits .f32 0x00000000#32 + _ = _
  rw [Ideal.ofBits_zero_f32, zero_add]

/-- At the last point the output buffer holds, at (b, o), the layer's value for the arrays the region found. -/
theorem out_last (c : Dev nD) (t : Fin cfg0.N) (ht : t.val = 15) (b : Fin 64) (o : Fin 8) :
    (outsAt0 m c t.val t.isLt).1 (ix2 b o)
      = headAt (xarr m c) (carr m c) (warr m c) (m ((c.tc : Thread nD τ).loc main_arg3)) b o := by
  have h0 : ¬t.val % 16 = 0 := by omega
  have h1 : t.val % 16 = 15 := by omega
  have e := step_last_out m c t h0 h1
  rw [← step_next_csq m c t h0, ← step_next_xsq m c t h0, ← step_next_cross m c t h0] at e
  refine (congrFun e (ix2 b o)).trans ?_
  refine (pay1_at (outsAt0 m c t.val t.isLt).2.2.1 (outsAt0 m c t.val t.isLt).2.2.2 (outsAt0 m c t.val t.isLt).2.1
    (wblk m c t) (bblk m c t) b o).trans ?_
  unfold headAt
  exact headOf_congr (funext fun b => xsq_last m c t ht b) (funext fun j => csq_last m c t ht j)
    (funext fun b => funext fun j => cross_last m c t ht b j) (wblk_eq m c t)
    (funext fun o => by rw [bblk_eq m c t, barr_at]) b o

end Cert.RbfHead

end
-- ==== Proof.KernelValue.lean ====
/-
  The result array after the kernel's run.

  The output window has one block, the whole [64, 8] array, at block index (0, 0) at every grid point, and the pipeline
  writes it back once, after the last point (point 15). So the array after the run is what the last point left in the
  output buffer, and that is the layer's value at every index (b, o) — the specification `headAt` of the flattened batch,
  the centres, the weights and the bias as the region found them. Reading the array through the block at zero offsets
  with the array's own sizes is reading the array; every index lies in that one block.
-/
import proofs.«160877_j9062380994856_1_alg».proof.Proof.Fold
import proofs.«160877_j9062380994856_1_alg».proof.Proof.Gen.KernelIdeal.Value

noncomputable section

namespace Cert.RbfHead

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer's value, as contents of the [64, 8] result array. -/
def layerOut (c : Dev nD) : Vec Ideal S64x8 .f32 := fun i =>
  headAt (xarr m c) (carr m c) (warr m c) (m ((c.tc : Thread nD τ).loc main_arg3))
    ⟨(i 0).val, (i 0).isLt⟩ ⟨(i 1).val, (i 1).isLt⟩

/-- At (b, o) it is the specification at (b, o). -/
theorem layerOut_at (c : Dev nD) (b : Fin 64) (o : Fin 8) :
    layerOut m c (ix2 b o) = headAt (xarr m c) (carr m c) (warr m c) (m ((c.tc : Thread nD τ).loc main_arg3)) b o := rfl

/-- What point 15 leaves in the output buffer is the layer's value, index by index. -/
theorem last_holds (c : Dev nD) : (outsAt0 m c t0_15.val t0_15.isLt).1 = layerOut m c := funext fun i => by
  obtain ⟨b, o, rfl⟩ : ∃ (b : Fin 64) (o : Fin 8), i = ix2 b o := ⟨i 0, i 1, eq_ix2 i⟩
  exact (out_last m c t0_15 rfl b o).trans (layerOut_at m c b o).symm

/-- The only write-back, after point 15, writes the layer's value: the block at (0, 0) with the array's sizes is the array. -/
theorem flushed_layer (c : Dev nD) (t : Fin cfg0.N) (hf : (cfg0.win 4).flush t = true) :
    (dats m 0 c).flushed 4 t = ((cfg0.win 4).blk t).view.read (Elt Ideal) (layerOut m c) := by
  have hN : cfg0.N = 16 := N_0
  have h15 : t.val = 15 := by have h := (flush0_4 t).mp hf; have := t.isLt; omega
  obtain rfl : t = t0_15 := Fin.ext h15
  rw [Cert.KernelIdeal.Value.flushed4 m c t0_15, last_holds]
  have hoff : (fun a => win0_4.index t0_15 a * main_v2.ty.shape.size a) = fun _ => 0 :=
    funext fun a => by fin_cases a <;> decide
  exact (Memref.read_access_unit_zero (Elt Ideal) main_v2 hoff (fun a => by rw [congrFun hoff a]; simp) (layerOut m c)).symm

/-- Every index of the result array lies in the block point 15 writes back. -/
theorem covered (i : S64x8.Idx) : i ∈ ((cfg0.win 4).blk t0_15).view.set := by
  show i ∈ ((View.whole main_v2).slice (win0_4.rect t0_15)).set
  rw [View.set_slice_whole, Rect.mem_set_unit]
  intro a
  have hb : (i 0 : Nat) < 64 := (i 0).isLt
  have ho : (i 1 : Nat) < 8 := (i 1).isLt
  match a with
  | ⟨0, _⟩ =>
    show win0_4.index t0_15 0 * win0_4.size 0 ≤ (i 0 : Nat)
      ∧ (i 0 : Nat) < win0_4.index t0_15 0 * win0_4.size 0 + win0_4.xsize (grid0.coords t0_15) 0
    rw [show win0_4.index t0_15 0 * win0_4.size 0 = 0 from by decide +kernel,
      show win0_4.xsize (grid0.coords t0_15) 0 = 64 from by decide +kernel]
    omega
  | ⟨1, _⟩ =>
    show win0_4.index t0_15 1 * win0_4.size 1 ≤ (i 1 : Nat)
      ∧ (i 1 : Nat) < win0_4.index t0_15 1 * win0_4.size 1 + win0_4.xsize (grid0.coords t0_15) 1
    rw [show win0_4.index t0_15 1 * win0_4.size 1 = 0 from by decide +kernel,
      show win0_4.xsize (grid0.coords t0_15) 1 = 8 from by decide +kernel]
    omega

/-- So the result array ends holding the layer's value. -/
theorem final_out (c : Dev nD) : (dats m 0 c).arrAt 4 cfg0.N = layerOut m c :=
  (dats m 0 c).arrAt_eq_of_cover 4 (layerOut m c) (flushed_layer m c) fun i =>
    ⟨t0_15, (flush0_4 t0_15).mpr (by decide), covered i⟩

/-- The kernel's run: it terminates with the result array at the layer's value and the four arguments unchanged. -/
theorem kernel_run : θ_run defs (onTc (τ := τ) (main (F := Ideal))) ⟨m, fun _ => 0, ρ⟩ fun r => ∀ c : Dev nD,
      r.2.mem ((c : Thread nD τ).loc main_v2) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_out m c), (h c).2⟩)
    (Cert.KernelIdeal.Value.run_blocks m ρ)

end Cert.RbfHead

end
-- ==== Proof.RefValue.lean ====
/-
  The reference program's result, read one element at a time, is the layer's specification.

  The reference computes, for the flattened batch xf = reshape x ([64, 65536]), the centres c, the weights w and the
  bias:  out = exp (γ' · ((‖xf‖² − 2 · (xf · cᵀ)) + ‖c‖²ᵀ)) · wᵀ + bias.  Read at the output index (b, o) through the
  per-operation reading lemmas of the generated module, every layer of broadcasting, transposition and elementwise
  arithmetic peels off to one element of its operands, and the three reductions become sums over the 65536 features:
      row b of the broadcast squared norm of xf   is  0-word + Σ_K xf[b,K]²,
      column j of the broadcast squared norm of c is  0-word + Σ_K c[j,K]²,
      entry (b, j) of xf · cᵀ                      is  Σ_K xf[b,K] · c[j,K],
  so that entry (b, j) of the exponential is exp (γ' · ((xsq b − 2-word · cross b j) + csq j)) and the final
  contraction with wᵀ over the 500 centres, plus the broadcast bias, is exactly `headAt` of xf, c, w and the bias at
  (b, o). At the ideal instance each float operation is the extended reals' own operation, so no law of arithmetic
  is needed: both sides are the same expression term for term once the composed index maps of the layout operations
  are identified, coordinate by coordinate, with the plain index built from the literal coordinates. The three float
  words (zero, two, γ') are carried as words on both sides and never evaluated. The reshape of the batch is not
  opened: the flattened batch is the specification's first argument.
-/
import proofs.«160877_j9062380994856_1_alg».proof.Proof.Gen.ReferenceIdeal.Read
import proofs.«160877_j9062380994856_1_alg».proof.Proof.RbfSpec
import Idealize.ShloMosaic.Lib.ValueIdx
import Idealize.ShloMosaic.PureOps.Ideal.Laws

noncomputable section

namespace Cert.RbfHead

open Cert.ReferenceIdeal Idealize.ShloMosaic Idealize.ShloMosaic.TcCoe Idealize.SL.Sem Idealize.ShloMosaic.ValueIdx

/-- The squared norm of the batch, broadcast over the centres, read at (b, j): two broadcasts reach element b of the
    row reduction, which is the zero word plus the sum over the 65536 features of the square of xf[b, K]. -/
theorem ref_xsq_at (x0 : (⟨S64x256x256, .f32⟩ : BufTy).Contents (Elt Ideal)) (b : Fin 64) (j : Fin 500) :
    Cert.ReferenceIdeal.Read.val_main_v10 (F := Ideal) x0 (ix2 b j)
      = zeroW + rowSq (Cert.ReferenceIdeal.Read.val_main_v0 (F := Ideal) x0) b := by
  rw [Read.val_main_v10_apply, Read.val_main_v3_apply, Read.val_main_v2_apply, Read.val_main_cst_apply]
  unfold rowSq
  refine congrArg (_ + ·) (Finset.sum_congr rfl fun K _ => ?_)
  rw [Read.val_main_v1_apply]
  have e : Read.idx_main_v2 (Read.idx_main_v3 (Read.idx_main_v10 (ix2 b j))) K = ix2 b K :=
    funext fun a => Fin.ext (by match a with | ⟨0, _⟩ => rfl | ⟨1, _⟩ => rfl)
  rw [e]
  rfl

/-- The squared norm of the centres, broadcast over the batch, read at (b, j): two broadcasts reach element j of the
    row reduction of c², which is the zero word plus the sum over the 65536 features of the square of c[j, K]. -/
theorem ref_csq_at (x1 : (⟨S500x65536, .f32⟩ : BufTy).Contents (Elt Ideal)) (b : Fin 64) (j : Fin 500) :
    Cert.ReferenceIdeal.Read.val_main_v13 (F := Ideal) x1 (ix2 b j) = zeroW + rowSq x1 j := by
  rw [Read.val_main_v13_apply, Read.val_main_v12_apply, Read.val_main_v5_apply, Read.val_main_cst_0_apply]
  unfold rowSq
  refine congrArg (_ + ·) (Finset.sum_congr rfl fun K _ => ?_)
  rw [Read.val_main_v4_apply]
  have e : Read.idx_main_v5 (Read.idx_main_v12 (Read.idx_main_v13 (ix2 b j))) K = ix2 j K :=
    funext fun a => Fin.ext (by match a with | ⟨0, _⟩ => rfl | ⟨1, _⟩ => rfl)
  rw [e]
  rfl

/-- The product of the flattened batch with the transposed centres, read at (b, j): the contraction is the sum over the
    65536 features of xf[b, K] times the transpose at (K, j), and the transpose at (K, j) is c[j, K]. -/
theorem ref_cross_at (x0 : (⟨S64x256x256, .f32⟩ : BufTy).Contents (Elt Ideal)) (x1 : (⟨S500x65536, .f32⟩ : BufTy).Contents (Elt Ideal))
    (b : Fin 64) (j : Fin 500) :
    Cert.ReferenceIdeal.Read.val_main_v7 (F := Ideal) x0 x1 (ix2 b j)
      = cross (Cert.ReferenceIdeal.Read.val_main_v0 (F := Ideal) x0) x1 b j := by
  rw [Read.val_main_v7_apply]
  unfold cross
  refine Finset.sum_congr rfl fun K _ => ?_
  rw [Read.val_main_v6_apply]
  have el : Read.lidx_main_v7 (ix2 b j) K = ix2 b K :=
    funext fun a => Fin.ext (by match a with | ⟨0, _⟩ => rfl | ⟨1, _⟩ => rfl)
  have er : Read.idx_main_v6 (Read.ridx_main_v7 (ix2 b j) K) = ix2 j K :=
    funext fun a => Fin.ext (by match a with | ⟨0, _⟩ => rfl | ⟨1, _⟩ => rfl)
  rw [el, er]

/-- The radial feature read at (b, j): the exponential of the γ' word times ((xsq b − two-word · cross b j) + csq j),
    each scalar constant read through its broadcast and the three reductions read by the lemmas above; at the ideal
    instance the float operations are the extended reals' product, sum, difference and exponential. -/
theorem ref_feature_at (x0 : (⟨S64x256x256, .f32⟩ : BufTy).Contents (Elt Ideal)) (x1 : (⟨S500x65536, .f32⟩ : BufTy).Contents (Elt Ideal))
    (b : Fin 64) (j : Fin 500) :
    Cert.ReferenceIdeal.Read.val_main_v17 (F := Ideal) x0 x1 (ix2 b j)
      = Ideal.exp (negGammaW * (((zeroW + rowSq (Cert.ReferenceIdeal.Read.val_main_v0 (F := Ideal) x0) b)
          - twoW * cross (Cert.ReferenceIdeal.Read.val_main_v0 (F := Ideal) x0) x1 b j) + (zeroW + rowSq x1 j))) := by
  rw [Read.val_main_v17_apply, Read.val_main_v16_apply, Read.val_main_v15_apply, Read.val_main_cst_2_apply,
    Read.val_main_v14_apply, Read.val_main_v11_apply, Read.val_main_v9_apply, Read.val_main_v8_apply,
    Read.val_main_cst_1_apply, ref_xsq_at, ref_csq_at, ref_cross_at]
  simp only [Ideal.mulf_def, Ideal.addf_def, Ideal.subf_def, Ideal.hostUnary_exp_def, Ideal.ofBits_def]

/-- The reference's result at (b, o) is the specification: the last contraction is the sum over the 500 centres of the
    feature at (b, j) times the transposed weights at (j, o), that is w[o, j]; the bias, broadcast twice, is read at o;
    and their sum is `headAt` of the flattened batch, the centres, the weights and the bias at (b, o). -/
theorem ref_at (x0 : (⟨S64x256x256, .f32⟩ : BufTy).Contents (Elt Ideal)) (x1 : (⟨S500x65536, .f32⟩ : BufTy).Contents (Elt Ideal))
    (x2 : (⟨S8x500, .f32⟩ : BufTy).Contents (Elt Ideal)) (x3 : (⟨S8, .f32⟩ : BufTy).Contents (Elt Ideal)) (b : Fin 64) (o : Fin 8) :
    Cert.ReferenceIdeal.Read.val_main_v22 (F := Ideal) x0 x1 x2 x3 (ix2 b o)
      = headAt (Cert.ReferenceIdeal.Read.val_main_v0 (F := Ideal) x0) x1 x2 x3 b o := by
  rw [Read.val_main_v22_apply, Read.val_main_v19_apply, Read.val_main_v21_apply, Read.val_main_v20_apply]
  unfold headAt headOf
  have eb : Read.idx_main_v20 (Read.idx_main_v21 (ix2 b o)) = ix1 o :=
    funext fun a => Fin.ext (by match a with | ⟨0, _⟩ => rfl)
  rw [eb, Ideal.addf_def]
  have el : ∀ j : Fin 500, Read.lidx_main_v19 (ix2 b o) j = ix2 b j := fun j =>
    funext fun a => Fin.ext (by match a with | ⟨0, _⟩ => rfl | ⟨1, _⟩ => rfl)
  have er : ∀ j : Fin 500, Read.idx_main_v18 (Read.ridx_main_v19 (ix2 b o) j) = ix2 o j := fun j =>
    funext fun a => Fin.ext (by match a with | ⟨0, _⟩ => rfl | ⟨1, _⟩ => rfl)
  simp only [Read.val_main_v18_apply, el, er, ref_feature_at]

end Cert.RbfHead

end
-- ==== Proof.lean ====
/-
  An RBF layer with a linear head, computed with the 65536 features cut into 16 blocks, against the same layer computed
  with whole-row sums.

  Both programs compute, for batch row b and output o,
      Σ_j exp(γ'·((xsq[b] − 2·cross[b, j]) + csq[j])) · w[o, j] + bias[o],
  with the same three float words (zero, two, and γ' the word nearest −1e-4) in the same places and the same order of
  the pointwise operations. The reference takes xsq, csq and cross as sums over all 65536 features of the flattened
  batch and the centres (the two squared norms starting from the zero word); the kernel adds up, over its sixteen grid
  points, each block's own sums into three accumulators that start at the zero word, and computes the head at the last
  point. At the ideal values a change of float format is the identity and a sum may be regrouped freely (addition on
  the extended reals is commutative and associative), so the sixteen block sums are the whole-row sums and the two
  results agree at every index. The finiteness of the inputs is not used.

  The three frames are the generated frame certificates (the reference's is its generated run with the result dropped);
  nothing was rewritten when the kernel was idealized, so that conjunct is trivial. For the value claim the kernel's
  result array is read off the frame run (the last point's write-back, Proof/KernelValue.lean over Proof/Fold.lean) and
  the reference's off its generated run (Proof/RefValue.lean); both are the specification `Cert.RbfHead.headAt`
  (Proof/RbfSpec.lean) of the same arguments.
-/
import proofs.«160877_j9062380994856_1_alg».proof.Defs
import proofs.«160877_j9062380994856_1_alg».proof.Proof.Gen.Kernel
import proofs.«160877_j9062380994856_1_alg».proof.Proof.Gen.Kernel.Skeleton
import proofs.«160877_j9062380994856_1_alg».proof.Proof.Gen.Kernel.Launch
import proofs.«160877_j9062380994856_1_alg».proof.Proof.Gen.Kernel.Points
import proofs.«160877_j9062380994856_1_alg».proof.Proof.Gen.Kernel.Frame
import proofs.«160877_j9062380994856_1_alg».proof.Proof.Gen.KernelIdeal
import proofs.«160877_j9062380994856_1_alg».proof.Proof.Gen.KernelIdeal.Skeleton
import proofs.«160877_j9062380994856_1_alg».proof.Proof.Gen.KernelIdeal.Launch
import proofs.«160877_j9062380994856_1_alg».proof.Proof.Gen.KernelIdeal.Points
import proofs.«160877_j9062380994856_1_alg».proof.Proof.Gen.KernelIdeal.Frame
import proofs.«160877_j9062380994856_1_alg».proof.Proof.Gen.ReferenceIdeal
import proofs.«160877_j9062380994856_1_alg».proof.Proof.Gen.Pre_finite_inputs
import proofs.«160877_j9062380994856_1_alg».proof.Proof.Gen.KernelIdeal.Value
import proofs.«160877_j9062380994856_1_alg».proof.Proof.Gen.ReferenceIdeal.Run
import proofs.«160877_j9062380994856_1_alg».proof.Proof.Gen.ReferenceIdeal.Read
import proofs.«160877_j9062380994856_1_alg».proof.Proof.KernelValue
import proofs.«160877_j9062380994856_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged: its generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments the two programs end with the same result array: at (b, o) both hold the
    layer's value of the flattened batch, the centres, the weights and the bias. -/
theorem algebraic : Cert.algebraic_KernelIdeal_ReferenceIdeal := by
  intro m ρ m' ρ' _ hagree
  refine ⟨fun c => Cert.RbfHead.layerOut m c, Cert.RbfHead.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq]
  funext i
  obtain ⟨b, o, rfl⟩ : ∃ (b : Fin 64) (o : Fin 8), i = ix2 b o := ⟨i 0, i 1, eq_ix2 i⟩
  beta_reduce
  rw [Cert.RbfHead.ref_at, Cert.RbfHead.layerOut_at, (hagree c).1, (hagree c).2.1, (hagree c).2.2.1, (hagree c).2.2.2,
    Cert.RbfHead.xarr_eq, Cert.RbfHead.carr_eq, Cert.RbfHead.warr_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
